-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4x256x256x256 .f32) (main_arg1 : FVec F S256 .f32) (main_arg2 : FVec F S256 .f32) (main_arg3 : FVec F S768x256 .f32) (main_arg4 : FVec F S256x256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_v13 main_v16
-- ==== Kernel.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S256x768 : Shape := ⟨2, ![256, 768]⟩
abbrev S1x256x8x128 : Shape := ⟨4, ![1, 256, 8, 128]⟩
abbrev S256x8x128 : Shape := ⟨3, ![256, 8, 128]⟩
abbrev S8x128x256 : Shape := ⟨3, ![8, 128, 256]⟩
abbrev S8x128 : Shape := ⟨2, ![8, 128]⟩
abbrev S8x128x1 : Shape := ⟨3, ![8, 128, 1]⟩
abbrev S1x1x256 : Shape := ⟨3, ![1, 1, 256]⟩
abbrev S1024x256 : Shape := ⟨2, ![1024, 256]⟩
abbrev S1024x768 : Shape := ⟨2, ![1024, 768]⟩
abbrev S8x16x8x4x64 : Shape := ⟨5, ![8, 16, 8, 4, 64]⟩
abbrev S16x4x8x8x64 : Shape := ⟨5, ![16, 4, 8, 8, 64]⟩
abbrev S64x64x64 : Shape := ⟨3, ![64, 64, 64]⟩
abbrev S64x64 : Shape := ⟨2, ![64, 64]⟩
abbrev S64x64x1 : Shape := ⟨3, ![64, 64, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S256x768, .f32⟩
  | .hbm, ⟨6, _⟩ => ⟨S256x256, .f32⟩
  | .hbm, ⟨7, _⟩ => ⟨S4x256x256x256, .f32⟩
  | .local _ .vmem, ⟨0, _⟩ => ⟨S1x256x8x128, .f32⟩
  | .local _ .vmem, ⟨1, _⟩ => ⟨S1x256x8x128, .f32⟩
  | .local _ .vmem, ⟨2, _⟩ => ⟨S256, .f32⟩
  | .local _ .vmem, ⟨3, _⟩ => ⟨S256, .f32⟩
  | .local _ .vmem, ⟨4, _⟩ => ⟨S256x768, .f32⟩
  | .local _ .vmem, ⟨5, _⟩ => ⟨S256x256, .f32⟩
  | .local _ .vmem, ⟨6, _⟩ => ⟨S1x256x8x128, .f32⟩
  | .local _ .vmem, ⟨7, _⟩ => ⟨S1x256x8x128, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![4, 32, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  transposes_S768x256_S256x768_1_0 : S768x256.Transposes [1, 0] S256x768
  transposes_S256x256_S256x256_1_0 : S256x256.Transposes [1, 0] S256x256
  inb_S1x256x8x128_S1x256x8x128_0_0_0_0 : ∀ a, (![0, 0, 0, 0] : Fin 4 → Nat) a + S1x256x8x128.size a ≤ S1x256x8x128.size a
  h_S1x256x8x128 : 0 < S1x256x8x128.numel
  shapeCasts_S1x256x8x128_S256x8x128 : S1x256x8x128.ShapeCasts S256x8x128
  transposes_S256x8x128_p1_2_0_S8x128x256 : S256x8x128.Transposes [1, 2, 0] S8x128x256
  reduces_S8x128x256_S8x128 : S8x128x256.Reduces [2] S8x128
  shapeCasts_S8x128_S8x128x1 : S8x128.ShapeCasts S8x128x1
  broadcasts_S8x128x1_S8x128x256 : S8x128x1.Broadcasts S8x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S8x128x256 : S1x1x256.Broadcasts S8x128x256
  shapeCasts_S8x128x256_S1024x256 : S8x128x256.ShapeCasts S1024x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S1024x256_S8x16x8x4x64 : S1024x256.ShapeCasts S8x16x8x4x64
  transposes_S8x16x8x4x64_p1_3_0_2_4_S16x4x8x8x64 : S8x16x8x4x64.Transposes [1, 3, 0, 2, 4] S16x4x8x8x64
  shapeCasts_S16x4x8x8x64_S64x64x64 : S16x4x8x8x64.ShapeCasts S64x64x64
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x64_S16x4x8x8x64 : S64x64x64.ShapeCasts S16x4x8x8x64
  transposes_S16x4x8x8x64_p2_0_3_1_4_S8x16x8x4x64 : S16x4x8x8x64.Transposes [2, 0, 3, 1, 4] S8x16x8x4x64
  shapeCasts_S8x16x8x4x64_S8x128x256 : S8x16x8x4x64.ShapeCasts S8x128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S8x128x256 : S1024x256.ShapeCasts S8x128x256
  transposes_S8x128x256_p2_0_1_S256x8x128 : S8x128x256.Transposes [2, 0, 1] S256x8x128
  shapeCasts_S256x8x128_S1x256x8x128 : S256x8x128.ShapeCasts S1x256x8x128
  dot_S1024x256_S256x768_S1024x768_1_0_0_1_n_n_wf : DotDims.WF S1024x256 S256x768 S1024x768 [1] [0] [0] [1] [] []
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8x128.size a ≤ S4x256x256x256.size a
  hwx0_0 : ∀ i : grid0.Coords, EltTy.bits .f32 = 32 ∨ (Rect.block (s := S4x256x256x256) S1x256x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x8x128.size a ≤ S4x256x256x256.size a
  hwx0_5 : ∀ i : grid0.Coords, EltTy.bits .f32 = 32 ∨ (Rect.block (s := S4x256x256x256) S1x256x8x128.size (cc0_transform_5 i) (hinb0_5 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S256 : Shape := ⟨1, ![256]⟩
abbrev S768x256 : Shape := ⟨2, ![768, 256]⟩
abbrev S256x256 : Shape := ⟨2, ![256, 256]⟩
abbrev S_ : Shape := ⟨0, ![]⟩
abbrev S4x256x256 : Shape := ⟨3, ![4, 256, 256]⟩
abbrev S4x256x256x1 : Shape := ⟨4, ![4, 256, 256, 1]⟩
abbrev S1x1x1x256 : Shape := ⟨4, ![1, 1, 1, 256]⟩
abbrev S4x256x256x768 : Shape := ⟨4, ![4, 256, 256, 768]⟩
abbrev S4x32x8x32x8x4x64 : Shape := ⟨7, ![4, 32, 8, 32, 8, 4, 64]⟩
abbrev S4x32x32x4x8x8x64 : Shape := ⟨7, ![4, 32, 32, 4, 8, 8, 64]⟩
abbrev S4x32x32x4x64x64 : Shape := ⟨6, ![4, 32, 32, 4, 64, 64]⟩
abbrev S4x32x32x4x64 : Shape := ⟨5, ![4, 32, 32, 4, 64]⟩
abbrev S4x32x32x4x64x1 : Shape := ⟨6, ![4, 32, 32, 4, 64, 1]⟩

abbrev nBuf : Space → Nat
  | .hbm => 73
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S256x256, .f32⟩
  | .hbm, ⟨5, _⟩ => ⟨S4x256x256x256, .f32⟩
  | .hbm, ⟨6, _⟩ => ⟨S_, .f32⟩
  | .hbm, ⟨7, _⟩ => ⟨S4x256x256, .f32⟩
  | .hbm, ⟨8, _⟩ => ⟨S4x256x256x1, .f32⟩
  | .hbm, ⟨9, _⟩ => ⟨S_, .f32⟩
  | .hbm, ⟨10, _⟩ => ⟨S4x256x256x1, .f32⟩
  | .hbm, ⟨11, _⟩ => ⟨S4x256x256x1, .f32⟩
  | .hbm, ⟨12, _⟩ => ⟨S4x256x256x256, .f32⟩
  | .hbm, ⟨13, _⟩ => ⟨S4x256x256x256, .f32⟩
  | .hbm, ⟨14, _⟩ => ⟨S4x256x256x256, .f32⟩
  | .hbm, ⟨15, _⟩ => ⟨S_, .f32⟩
  | .hbm, ⟨16, _⟩ => ⟨S4x256x256, .f32⟩
  | .hbm, ⟨17, _⟩ => ⟨S4x256x256x1, .f32⟩
  | .hbm, ⟨18, _⟩ => ⟨S_, .f32⟩
  | .hbm, ⟨19, _⟩ => ⟨S4x256x256x1, .f32⟩
  | .hbm, ⟨20, _⟩ => ⟨S4x256x256x1, .f32⟩
  | .hbm, ⟨21, _⟩ => ⟨S4x256x256x256, .f32⟩
  | .hbm, ⟨22, _⟩ => ⟨S4x256x256x256, .f32⟩
  | .hbm, ⟨23, _⟩ => ⟨S_, .f32⟩
  | .hbm, ⟨24, _⟩ => ⟨S4x256x256x1, .f32⟩
  | .hbm, ⟨25, _⟩ => ⟨S4x256x256x1, .f32⟩
  | .hbm, ⟨26, _⟩ => ⟨S4x256x256x1, .f32⟩
  | .hbm, ⟨27, _⟩ => ⟨S4x256x256x256, .f32⟩
  | .hbm, ⟨28, _⟩ => ⟨S4x256x256x256, .f32⟩
  | .hbm, ⟨29, _⟩ => ⟨S1x1x1x256, .f32⟩
  | .hbm, ⟨30, _⟩ => ⟨S4x256x256x256, .f32⟩
  | .hbm, ⟨31, _⟩ => ⟨S4x256x256x256, .f32⟩
  | .hbm, ⟨32, _⟩ => ⟨S1x1x1x256, .f32⟩
  | .hbm, ⟨33, _⟩ => ⟨S4x256x256x256, .f32⟩
  | .hbm, ⟨34, _⟩ => ⟨S4x256x256x256, .f32⟩
  | .hbm, ⟨35, _⟩ => ⟨S4x256x256x768, .f32⟩
  | .hbm, ⟨36, _⟩ => ⟨S4x256x256x256, .f32⟩
  | .hbm, ⟨37, _⟩ => ⟨S4x256x256x256, .f32⟩
  | .hbm, ⟨38, _⟩ => ⟨S4x256x256x256, .f32⟩
  | .hbm, ⟨39, _⟩ => ⟨S4x32x8x32x8x4x64, .f32⟩
  | .hbm, ⟨40, _⟩ => ⟨S4x32x32x4x8x8x64, .f32⟩
  | .hbm, ⟨41, _⟩ => ⟨S4x32x32x4x64x64, .f32⟩
  | .hbm, ⟨42, _⟩ => ⟨S4x32x8x32x8x4x64, .f32⟩
  | .hbm, ⟨43, _⟩ => ⟨S4x32x32x4x8x8x64, .f32⟩
  | .hbm, ⟨44, _⟩ => ⟨S4x32x32x4x64x64, .f32⟩
  | .hbm, ⟨45, _⟩ => ⟨S4x32x8x32x8x4x64, .f32⟩
  | .hbm, ⟨46, _⟩ => ⟨S4x32x32x4x8x8x64, .f32⟩
  | .hbm, ⟨47, _⟩ => ⟨S4x32x32x4x64x64, .f32⟩
  | .hbm, ⟨48, _⟩ => ⟨S4x32x32x4x64x64, .f32⟩
  | .hbm, ⟨49, _⟩ => ⟨S_, .f32⟩
  | .hbm, ⟨50, _⟩ => ⟨S4x32x32x4x64x64, .f32⟩
  | .hbm, ⟨51, _⟩ => ⟨S4x32x32x4x64x64, .f32⟩
  | .hbm, ⟨52, _⟩ => ⟨S_, .f32⟩
  | .hbm, ⟨53, _⟩ => ⟨S4x32x32x4x64, .f32⟩
  | .hbm, ⟨54, _⟩ => ⟨S_, .f32⟩
  | .hbm, ⟨55, _⟩ => ⟨S4x32x32x4x64, .f32⟩
  | .hbm, ⟨56, _⟩ => ⟨S4x32x32x4x64, .f32⟩
  | .hbm, ⟨57, _⟩ => ⟨S4x32x32x4x64x1, .f32⟩
  | .hbm, ⟨58, _⟩ => ⟨S4x32x32x4x64x64, .f32⟩
  | .hbm, ⟨59, _⟩ => ⟨S4x32x32x4x64x64, .f32⟩
  | .hbm, ⟨60, _⟩ => ⟨S4x32x32x4x64x64, .f32⟩
  | .hbm, ⟨61, _⟩ => ⟨S_, .f32⟩
  | .hbm, ⟨62, _⟩ => ⟨S4x32x32x4x64, .f32⟩
  | .hbm, ⟨63, _⟩ => ⟨S4x32x32x4x64x1, .f32⟩
  | .hbm, ⟨64, _⟩ => ⟨S4x32x32x4x64x64, .f32⟩
  | .hbm, ⟨65, _⟩ => ⟨S4x32x32x4x64x64, .f32⟩
  | .hbm, ⟨66, _⟩ => ⟨S4x32x32x4x64x64, .f32⟩
  | .hbm, ⟨67, _⟩ => ⟨S4x32x32x4x8x8x64, .f32⟩
  | .hbm, ⟨68, _⟩ => ⟨S4x32x8x32x8x4x64, .f32⟩
  | .hbm, ⟨69, _⟩ => ⟨S4x256x256x256, .f32⟩
  | .hbm, ⟨70, _⟩ => ⟨S4x256x256x256, .f32⟩
  | .hbm, ⟨71, _⟩ => ⟨S4x256x256x256, .f32⟩
  | .hbm, ⟨72, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]

class Facts₀ : Prop where
  transposes_S4x256x256x256_S4x256x256x256_0_2_3_1 : S4x256x256x256.Transposes [0, 2, 3, 1] S4x256x256x256
  reducesTo_S4x256x256x256_S4x256x256_d3 : S4x256x256x256.ReducesTo [3] S4x256x256
  h_S_ : 0 < S_.numel
  bcast_S4x256x256_S4x256x256x1_0_1_2 : S4x256x256.BroadcastsInDim S4x256x256x1 (![0, 1, 2] : Fin 3 → Fin S4x256x256x1.rank)
  bcast_S_S4x256x256x1 : S_.BroadcastsInDim S4x256x256x1 (![] : Fin 0 → Fin S4x256x256x1.rank)
  bcast_S4x256x256x1_S4x256x256x256_0_1_2_3 : S4x256x256x1.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  slices_S4x256x256x768_S4x256x256x256_0_0_0_0 : S4x256x256x768.Slices ![0, 0, 0, 0] S4x256x256x256
  slices_S4x256x256x768_S4x256x256x256_0_0_0_256 : S4x256x256x768.Slices ![0, 0, 0, 256] S4x256x256x256
  slices_S4x256x256x768_S4x256x256x256_0_0_0_512 : S4x256x256x768.Slices ![0, 0, 0, 512] S4x256x256x256
  shapeCasts_S4x256x256x256_S4x32x8x32x8x4x64 : S4x256x256x256.ShapeCasts S4x32x8x32x8x4x64
  transposes_S4x32x8x32x8x4x64_S4x32x32x4x8x8x64_0_1_3_5_2_4_6 : S4x32x8x32x8x4x64.Transposes [0, 1, 3, 5, 2, 4, 6] S4x32x32x4x8x8x64
  shapeCasts_S4x32x32x4x8x8x64_S4x32x32x4x64x64 : S4x32x32x4x8x8x64.ShapeCasts S4x32x32x4x64x64
  bcast_S_S4x32x32x4x64x64 : S_.BroadcastsInDim S4x32x32x4x64x64 (![] : Fin 0 → Fin S4x32x32x4x64x64.rank)
  reducesTo_S4x32x32x4x64x64_S4x32x32x4x64_d5 : S4x32x32x4x64x64.ReducesTo [5] S4x32x32x4x64
  bcast_S_S4x32x32x4x64 : S_.BroadcastsInDim S4x32x32x4x64 (![] : Fin 0 → Fin S4x32x32x4x64.rank)
  bcast_S4x32x32x4x64_S4x32x32x4x64x1_0_1_2_3_4 : S4x32x32x4x64.BroadcastsInDim S4x32x32x4x64x1 (![0, 1, 2, 3, 4] : Fin 5 → Fin S4x32x32x4x64x1.rank)
  bcast_S4x32x32x4x64x1_S4x32x32x4x64x64_0_1_2_3_4_5 : S4x32x32x4x64x1.BroadcastsInDim S4x32x32x4x64x64 (![0, 1, 2, 3, 4, 5] : Fin 6 → Fin S4x32x32x4x64x64.rank)
  shapeCasts_S4x32x32x4x64x64_S4x32x32x4x8x8x64 : S4x32x32x4x64x64.ShapeCasts S4x32x32x4x8x8x64
  transposes_S4x32x32x4x8x8x64_S4x32x8x32x8x4x64_0_1_4_2_5_3_6 : S4x32x32x4x8x8x64.Transposes [0, 1, 4, 2, 5, 3, 6] S4x32x8x32x8x4x64
  shapeCasts_S4x32x8x32x8x4x64_S4x256x256x256 : S4x32x8x32x8x4x64.ShapeCasts S4x256x256x256
  transposes_S4x256x256x256_S4x256x256x256_0_3_1_2 : S4x256x256x256.Transposes [0, 3, 1, 2] S4x256x256x256
  dot_S4x256x256x256_S768x256_S4x256x256x768_3_1_012_0_n_n_wf : DotDims.WF S4x256x256x256 S768x256 S4x256x256x768 [3] [1] [0, 1, 2] [0] [] []
  dot_S4x32x32x4x64x64_S4x32x32x4x64x64_S4x32x32x4x64x64_5_5_4_4_0123_0123_wf : DotDims.WF S4x32x32x4x64x64 S4x32x32x4x64x64 S4x32x32x4x64x64 [5] [5] [4] [4] [0, 1, 2, 3] [0, 1, 2, 3]
  dot_S4x32x32x4x64x64_S4x32x32x4x64x64_S4x32x32x4x64x64_5_4_4_5_0123_0123_wf : DotDims.WF S4x32x32x4x64x64 S4x32x32x4x64x64 S4x32x32x4x64x64 [5] [4] [4] [5] [0, 1, 2, 3] [0, 1, 2, 3]
  dot_S4x256x256x256_S256x256_S4x256x256x256_3_1_012_0_n_n_wf : DotDims.WF S4x256x256x256 S256x256 S4x256x256x256 [3] [1] [0, 1, 2] [0] [] []

variable [Facts₀]

def dot_S4x256x256x256_S768x256_S4x256x256x768_3_1_012_0_n_n : DotDims S4x256x256x256 S768x256 S4x256x256x768 where
  lhsContracting := [3]
  rhsContracting := [1]
  lhsNonContracting := [0, 1, 2]
  rhsNonContracting := [0]
  lhsBatch := []
  rhsBatch := []
  wf := dot_S4x256x256x256_S768x256_S4x256x256x768_3_1_012_0_n_n_wf
def dot_S4x32x32x4x64x64_S4x32x32x4x64x64_S4x32x32x4x64x64_5_5_4_4_0123_0123 : DotDims S4x32x32x4x64x64 S4x32x32x4x64x64 S4x32x32x4x64x64 where
  lhsContracting := [5]
  rhsContracting := [5]
  lhsNonContracting := [4]
  rhsNonContracting := [4]
  lhsBatch := [0, 1, 2, 3]
  rhsBatch := [0, 1, 2, 3]
  wf := dot_S4x32x32x4x64x64_S4x32x32x4x64x64_S4x32x32x4x64x64_5_5_4_4_0123_0123_wf
def dot_S4x32x32x4x64x64_S4x32x32x4x64x64_S4x32x32x4x64x64_5_4_4_5_0123_0123 : DotDims S4x32x32x4x64x64 S4x32x32x4x64x64 S4x32x32x4x64x64 where
  lhsContracting := [5]
  rhsContracting := [4]
  lhsNonContracting := [4]
  rhsNonContracting := [5]
  lhsBatch := [0, 1, 2, 3]
  rhsBatch := [0, 1, 2, 3]
  wf := dot_S4x32x32x4x64x64_S4x32x32x4x64x64_S4x32x32x4x64x64_5_4_4_5_0123_0123_wf
def dot_S4x256x256x256_S256x256_S4x256x256x256_3_1_012_0_n_n : DotDims S4x256x256x256 S256x256 S4x256x256x256 where
  lhsContracting := [3]
  rhsContracting := [1]
  lhsNonContracting := [0, 1, 2]
  rhsNonContracting := [0]
  lhsBatch := []
  rhsBatch := []
  wf := dot_S4x256x256x256_S256x256_S4x256x256x256_3_1_012_0_n_n_wf

class Facts : Prop extends Facts₀ where

variable [Facts]
-- ==== Proof.KStages.lean ====
/-
  The kernel body's arithmetic, cut where its mathematics cuts: the channel-last view of the tile, the layer norm over
  the channels, the joint query / key / value product, the three re-layouts into windows, the scaled scores, the row
  softmax, the product with the values, the merge of the windows back into the tile, the output product, and the
  residual in the tile's own layout. Each stage is a function of the stage before it, so that a statement about one
  stage can be made about ANY vector in the earlier stage's place; `payload_eq` says the body's stored value is their
  composition.
-/
import proofs.«134320_j21328807592345_1_alg».proof.Proof.Gen.KernelIdeal.Skeleton
import Idealize.ShloMosaic.PureOps.Ideal

noncomputable section

namespace Cert.KernelIdeal.Stages

open Cert.KernelIdeal Cert.KernelIdeal.Gen Idealize.ShloMosaic

/-- A vector of extended reals of shape `s`. -/
abbrev VI (s : Shape) : Type := FVec Ideal s .f32

/-- The tile [1, 256, 8, 128] seen channel-last, [8, 128, 256]. -/
def chanLast (x0 : Vec Ideal S1x256x8x128 .f32) : VI S8x128x256 :=
  transpose S8x128x256 [1, 2, 0] (shapeCast S256x8x128 x0 shapeCasts_S1x256x8x128_S256x8x128) transposes_S256x8x128_p1_2_0_S8x128x256

/-- The layer norm of every pixel over its 256 channels: centred by the mean, scaled by the reciprocal root of the
    variance plus epsilon, then by gamma, and shifted by beta. -/
def layerNorm (v2 : VI S8x128x256) (v19 v23 : Vec Ideal S256 .f32) : VI S8x128x256 :=
  have v3 : VI S8x128 := multiReduction .add [2] S8x128 v2 0x00000000#32 reduces_S8x128x256_S8x128 (.inl rfl) rfl
  have v4 : VI S8x128x1 := shapeCast S8x128x1 v3 shapeCasts_S8x128_S8x128x1
  have v5 : VI S8x128x1 := broadcast S8x128x1 (Scalar.ofBits .f32 0x43800000#32)
  have v6 : VI S8x128x1 := divf v4 v5
  have v7 : VI S8x128x256 := broadcastTo S8x128x256 v6 broadcasts_S8x128x1_S8x128x256
  have v8 : VI S8x128x256 := subf v2 v7
  have v9 : VI S8x128x256 := mulf v8 v8
  have v10 : VI S8x128 := multiReduction .add [2] S8x128 v9 0x00000000#32 reduces_S8x128x256_S8x128 (.inl rfl) rfl
  have v11 : VI S8x128x1 := shapeCast S8x128x1 v10 shapeCasts_S8x128_S8x128x1
  have v12 : VI S8x128x1 := broadcast S8x128x1 (Scalar.ofBits .f32 0x43800000#32)
  have v13 : VI S8x128x1 := divf v11 v12
  have v14 : VI S8x128x1 := broadcast S8x128x1 (Scalar.ofBits .f32 0x3727C5AC#32)
  have v15 : VI S8x128x1 := addf v13 v14
  have v16 : VI S8x128x1 := rsqrt v15
  have v17 : VI S8x128x256 := broadcastTo S8x128x256 v16 broadcasts_S8x128x1_S8x128x256
  have v18 : VI S8x128x256 := mulf v8 v17
  have v20 : VI S1x1x256 := shapeCast S1x1x256 v19 shapeCasts_S256_S1x1x256
  have v21 : VI S8x128x256 := broadcastTo S8x128x256 v20 broadcasts_S1x1x256_S8x128x256
  have v22 : VI S8x128x256 := mulf v18 v21
  have v24 : VI S1x1x256 := shapeCast S1x1x256 v23 shapeCasts_S256_S1x1x256
  have v25 : VI S8x128x256 := broadcastTo S8x128x256 v24 broadcasts_S1x1x256_S8x128x256
  addf v22 v25

/-- The joint product: the tile's 1024 pixels by the 768 columns of the transposed weight. -/
def qkv (xn : VI S8x128x256) (v29 : Vec Ideal S256x768 .f32) : VI S1024x768 :=
  have v27 : VI S1024x256 := shapeCast S1024x256 xn shapeCasts_S8x128x256_S1024x256
  have v28 : FVec Ideal S1024x256 .bf16 := truncf .bf16 v27 bitsLt_bf16_f32
  have v30 : VI S256x768 := shapeCast S256x768 v29 shapeCasts_S256x768_S256x768
  have v31 : FVec Ideal S256x768 .bf16 := truncf .bf16 v30 bitsLt_bf16_f32
  matmul dot_S1024x256_S256x768_S1024x768_1_0_0_1_n_n none v28 v31 (constant S1024x768 .f32 0x00000000#32)

/-- A third of the joint product, [1024, 256], laid out by window and head: [64 (window, head), 64 tokens, 64]. -/
def toWindows (t : VI S1024x256) : VI S64x64x64 :=
  shapeCast S64x64x64
    (transpose S16x4x8x8x64 [1, 3, 0, 2, 4] (shapeCast S8x16x8x4x64 t shapeCasts_S1024x256_S8x16x8x4x64)
      transposes_S8x16x8x4x64_p1_3_0_2_4_S16x4x8x8x64)
    shapeCasts_S16x4x8x8x64_S64x64x64

/-- The queries of the tile's windows. -/
def winQ (M : VI S1024x768) : VI S64x64x64 :=
  toWindows (extractStridedSlice S1024x256 ![0, 0] M slices_S1024x768_o0_0_S1024x256)
/-- The keys of the tile's windows. -/
def winK (M : VI S1024x768) : VI S64x64x64 :=
  toWindows (extractStridedSlice S1024x256 ![0, 256] M slices_S1024x768_o0_256_S1024x256)
/-- The values of the tile's windows. -/
def winV (M : VI S1024x768) : VI S64x64x64 :=
  toWindows (extractStridedSlice S1024x256 ![0, 512] M slices_S1024x768_o0_512_S1024x256)

/-- The scores of every (window, head): queries against keys over the head's 64 positions, times one eighth. -/
def scores (q k : VI S64x64x64) : VI S64x64x64 :=
  have v45 : FVec Ideal S64x64x64 .bf16 := truncf .bf16 q bitsLt_bf16_f32
  have v46 : FVec Ideal S64x64x64 .bf16 := truncf .bf16 k bitsLt_bf16_f32
  have v47 : VI S64x64x64 := matmul dot_S64x64x64_S64x64x64_S64x64x64_2_2_1_1_0_0 none v45 v46 (constant S64x64x64 .f32 0x00000000#32)
  mulf v47 (broadcast S64x64x64 (Scalar.ofBits .f32 0x3E000000#32))

/-- The softmax of every row of scores: the exponential of the score less the row's maximum, over the row's sum. -/
def softmax (s : VI S64x64x64) : VI S64x64x64 :=
  have v50 : VI S64x64 := multiReduction .maximumf [2] S64x64 s 0xFF800000#32 reduces_S64x64x64_S64x64 (.inl rfl) rfl
  have v51 : VI S64x64 := broadcast S64x64 (Scalar.ofBits .f32 0xFF800000#32)
  have v52 : VI S64x64 := maximumf v51 v50
  have v53 : VI S64x64x1 := shapeCast S64x64x1 v52 shapeCasts_S64x64_S64x64x1
  have v54 : VI S64x64x64 := broadcastTo S64x64x64 v53 broadcasts_S64x64x1_S64x64x64
  have v55 : VI S64x64x64 := subf s v54
  have v56 : VI S64x64x64 := exp v55
  have v57 : VI S64x64 := multiReduction .add [2] S64x64 v56 0x00000000#32 reduces_S64x64x64_S64x64 (.inl rfl) rfl
  have v58 : VI S64x64x1 := shapeCast S64x64x1 v57 shapeCasts_S64x64_S64x64x1
  have v59 : VI S64x64x64 := broadcastTo S64x64x64 v58 broadcasts_S64x64x1_S64x64x64
  divf v56 v59

/-- The attention's output of every (window, head): the probabilities against the values over the 64 key tokens. -/
def attnV (a v : VI S64x64x64) : VI S64x64x64 :=
  have v61 : FVec Ideal S64x64x64 .bf16 := truncf .bf16 a bitsLt_bf16_f32
  have v62 : FVec Ideal S64x64x64 .bf16 := truncf .bf16 v bitsLt_bf16_f32
  matmul dot_S64x64x64_S64x64x64_S64x64x64_2_1_1_2_0_0 none v61 v62 (constant S64x64x64 .f32 0x00000000#32)

/-- The windows' outputs laid back into the tile, channel-last: [8, 128, 256]. -/
def merge (o : VI S64x64x64) : VI S8x128x256 :=
  shapeCast S8x128x256
    (transpose S8x16x8x4x64 [2, 0, 3, 1, 4] (shapeCast S16x4x8x8x64 o shapeCasts_S64x64x64_S16x4x8x8x64)
      transposes_S16x4x8x8x64_p2_0_3_1_4_S8x16x8x4x64)
    shapeCasts_S8x16x8x4x64_S8x128x256

/-- The output product: the tile's 1024 pixels by the 256 columns of the transposed weight, channel-last. -/
def project (om : VI S8x128x256) (v69 : Vec Ideal S256x256 .f32) : VI S8x128x256 :=
  have v67 : VI S1024x256 := shapeCast S1024x256 om shapeCasts_S8x128x256_S1024x256
  have v68 : FVec Ideal S1024x256 .bf16 := truncf .bf16 v67 bitsLt_bf16_f32
  have v70 : VI S256x256 := shapeCast S256x256 v69 shapeCasts_S256x256_S256x256
  have v71 : FVec Ideal S256x256 .bf16 := truncf .bf16 v70 bitsLt_bf16_f32
  have v72 : VI S1024x256 := matmul dot_S1024x256_S256x256_S1024x256_1_0_0_1_n_n none v68 v71 (constant S1024x256 .f32 0x00000000#32)
  shapeCast S8x128x256 v72 shapeCasts_S1024x256_S8x128x256

/-- Back to the tile's own layout [1, 256, 8, 128], plus the tile itself. -/
def residual (p : VI S8x128x256) (x0 : Vec Ideal S1x256x8x128 .f32) : Vec Ideal S1x256x8x128 .f32 :=
  shapeCast S1x256x8x128
    (addf (transpose S256x8x128 [2, 0, 1] p transposes_S8x128x256_p2_0_1_S256x8x128)
      (shapeCast S256x8x128 x0 shapeCasts_S1x256x8x128_S256x8x128))
    shapeCasts_S256x8x128_S1x256x8x128

/-- The whole body on a tile and the four parameter arrays as it loads them. -/
def body (x0 : Vec Ideal S1x256x8x128 .f32) (x1 x2 : Vec Ideal S256 .f32) (x3 : Vec Ideal S256x768 .f32)
    (x4 : Vec Ideal S256x256 .f32) : Vec Ideal S1x256x8x128 .f32 :=
  let M := qkv (layerNorm (chanLast x0) x1 x2) x3
  residual (project (merge (attnV (softmax (scores (winQ M) (winK M))) (winV M))) x4) x0

/-- The value the body stores is the stages' composition. -/
theorem payload_eq (x0 : Vec Ideal S1x256x8x128 .f32) (x1 x2 : Vec Ideal S256 .f32) (x3 : Vec Ideal S256x768 .f32)
    (x4 : Vec Ideal S256x256 .f32) :
    k0_pay1 (F := Ideal) (k0_pay2 x0) (k0_pay4 x0 x1 x2 x3) (k0_pay5 x0 x1 x2 x3) (k0_pay6 x0 x1 x2 x3) x4
      = body x0 x1 x2 x3 x4 := rfl

end Cert.KernelIdeal.Stages

end
-- ==== Proof.LibRank7.lean ====
/-
  Rank-7 indices by coordinates, for reading a reshape to or from a rank-7 shape at an index: `Shape.rowMajor_val_seven`
  spells the row-major position of a rank-7 index as one sum of products (a form linear arithmetic can use, beside the
  library's forms for ranks 1 to 6), and `ValueIdx.ix7` builds a rank-7 index from its seven coordinates over literal
  extents. Generic in the extents; needs nothing of any program.
-/
import Idealize.ShloMosaic.Lib.ValueIdx
import Idealize.ShloMosaic.Lib.ValueIdxRank6

namespace Idealize.ShloMosaic

/-- Rank 7: the row-major position as one sum of products (the leading axis peeled off rank 6's). -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

end ValueIdx

end Idealize.ShloMosaic
-- ==== Proof.TileIdx.lean ====
/-
  Coordinates of one tile of the windowed attention. The image is cut into tiles of 8 rows by 128 columns; a tile is
  named by its batch entry, its row of windows `r` and its half `cb` of the columns. Inside a tile a pixel is a row
  `hh < 8` and a lane `w < 128`; the lane splits into the tile's window `nw < 16` and the column `ww < 8` inside the
  window; a channel splits into a head `hd < 4` and a position `d < 64` inside the head; a token of a window is
  `hh * 8 + ww`. Every map below is one of these splittings as a function between literal `Fin` types, with its value
  as a natural number and the fact that it is onto.
-/
import Idealize.ShloMosaic.Lib.ValueIdx
import Idealize.ShloMosaic.Lib.ValueIdxRank6
import proofs.«134320_j21328807592345_1_alg».proof.Proof.LibRank7

namespace Cert.Tile

open Idealize.ShloMosaic

/-- Image row `r * 8 + hh`: row `hh` of the `r`-th row of windows. -/
def row (r : Fin 32) (hh : Fin 8) : Fin 256 := ⟨r.val * 8 + hh.val, by omega⟩
/-- Image column `cb * 128 + w`: lane `w` of the `cb`-th half. -/
def col (cb : Fin 2) (w : Fin 128) : Fin 256 := ⟨cb.val * 128 + w.val, by omega⟩
/-- Lane `nw * 8 + ww`: column `ww` of the tile's window `nw`. -/
def lane (nw : Fin 16) (ww : Fin 8) : Fin 128 := ⟨nw.val * 8 + ww.val, by omega⟩
/-- The image's window column `cb * 16 + nw`. -/
def win (cb : Fin 2) (nw : Fin 16) : Fin 32 := ⟨cb.val * 16 + nw.val, by omega⟩
/-- Token `hh * 8 + ww` of a window. -/
def tok (hh : Fin 8) (ww : Fin 8) : Fin 64 := ⟨hh.val * 8 + ww.val, by omega⟩
/-- Channel `hd * 64 + d`: position `d` of head `hd`. -/
def chan (hd : Fin 4) (d : Fin 64) : Fin 256 := ⟨hd.val * 64 + d.val, by omega⟩
/-- Pixel `hh * 128 + w` of the tile, rows first. -/
def flat (hh : Fin 8) (w : Fin 128) : Fin 1024 := ⟨hh.val * 128 + w.val, by omega⟩
/-- The tile's (window, head) pair `nw * 4 + hd`. -/
def wh (nw : Fin 16) (hd : Fin 4) : Fin 64 := ⟨nw.val * 4 + hd.val, by omega⟩
/-- Column `j * 256 + c` of the joint query / key / value product: `j = 0, 1, 2`. -/
def third (j : Fin 3) (c : Fin 256) : Fin 768 := ⟨j.val * 256 + c.val, by omega⟩

@[simp] theorem row_val (r : Fin 32) (hh : Fin 8) : (row r hh).val = r.val * 8 + hh.val := rfl
@[simp] theorem col_val (cb : Fin 2) (w : Fin 128) : (col cb w).val = cb.val * 128 + w.val := rfl
@[simp] theorem lane_val (nw : Fin 16) (ww : Fin 8) : (lane nw ww).val = nw.val * 8 + ww.val := rfl
@[simp] theorem win_val (cb : Fin 2) (nw : Fin 16) : (win cb nw).val = cb.val * 16 + nw.val := rfl
@[simp] theorem tok_val (hh ww : Fin 8) : (tok hh ww).val = hh.val * 8 + ww.val := rfl
@[simp] theorem chan_val (hd : Fin 4) (d : Fin 64) : (chan hd d).val = hd.val * 64 + d.val := rfl
@[simp] theorem flat_val (hh : Fin 8) (w : Fin 128) : (flat hh w).val = hh.val * 128 + w.val := rfl
@[simp] theorem wh_val (nw : Fin 16) (hd : Fin 4) : (wh nw hd).val = nw.val * 4 + hd.val := rfl
@[simp] theorem third_val (j : Fin 3) (c : Fin 256) : (third j c).val = j.val * 256 + c.val := rfl

/-- Every lane is a column of one of the tile's windows. -/
theorem lane_surj (w : Fin 128) : ∃ (nw : Fin 16) (ww : Fin 8), w = lane nw ww :=
  ⟨⟨w.val / 8, by omega⟩, ⟨w.val % 8, by omega⟩, Fin.ext (by show w.val = w.val / 8 * 8 + w.val % 8; omega)⟩
/-- Every token is a row and a column of the window. -/
theorem tok_surj (t : Fin 64) : ∃ (hh ww : Fin 8), t = tok hh ww :=
  ⟨⟨t.val / 8, by omega⟩, ⟨t.val % 8, by omega⟩, Fin.ext (by show t.val = t.val / 8 * 8 + t.val % 8; omega)⟩
/-- Every channel is a position of one head. -/
theorem chan_surj (c : Fin 256) : ∃ (hd : Fin 4) (d : Fin 64), c = chan hd d :=
  ⟨⟨c.val / 64, by omega⟩, ⟨c.val % 64, by omega⟩, Fin.ext (by show c.val = c.val / 64 * 64 + c.val % 64; omega)⟩
/-- Every pixel of the tile is a row and a lane. -/
theorem flat_surj (p : Fin 1024) : ∃ (hh : Fin 8) (w : Fin 128), p = flat hh w :=
  ⟨⟨p.val / 128, by omega⟩, ⟨p.val % 128, by omega⟩, Fin.ext (by show p.val = p.val / 128 * 128 + p.val % 128; omega)⟩
/-- Every (window, head) pair of the tile. -/
theorem wh_surj (n : Fin 64) : ∃ (nw : Fin 16) (hd : Fin 4), n = wh nw hd :=
  ⟨⟨n.val / 4, by omega⟩, ⟨n.val % 4, by omega⟩, Fin.ext (by show n.val = n.val / 4 * 4 + n.val % 4; omega)⟩

end Cert.Tile
-- ==== Proof.Rel.lean ====
/-
  How a vector the kernel holds for one tile sits inside an array the reference holds for the whole image. The tile is
  batch entry `b`, row of windows `r`, half `cb` of the columns. Five layouts occur: the tile in the image's own
  layout (channels before rows and lanes); a channel-last array of pixels, with 256 channels; the joint product, pixels
  flattened, with 768 columns; an array by (window, head), token and position; and a weight against its transpose.
-/
import proofs.«134320_j21328807592345_1_alg».proof.Proof.KStages
import proofs.«134320_j21328807592345_1_alg».proof.Proof.TileIdx
import proofs.«134320_j21328807592345_1_alg».proof.Proof.Gen.ReferenceIdeal.Read

noncomputable section

namespace Cert.Bridge

open Idealize.ShloMosaic Idealize.ShloMosaic.ValueIdx Cert.Tile Cert.KernelIdeal.Stages

/-- The reference's arrays of extended reals, by shape. -/
abbrev RImg : Type := (⟨Cert.ReferenceIdeal.S4x256x256x256, .f32⟩ : BufTy).Contents (Elt Ideal)
abbrev RJoint : Type := (⟨Cert.ReferenceIdeal.S4x256x256x768, .f32⟩ : BufTy).Contents (Elt Ideal)
abbrev RWin : Type := (⟨Cert.ReferenceIdeal.S4x32x32x4x64x64, .f32⟩ : BufTy).Contents (Elt Ideal)
abbrev RVec : Type := (⟨Cert.ReferenceIdeal.S256, .f32⟩ : BufTy).Contents (Elt Ideal)
abbrev RWqkv : Type := (⟨Cert.ReferenceIdeal.S768x256, .f32⟩ : BufTy).Contents (Elt Ideal)
abbrev RWout : Type := (⟨Cert.ReferenceIdeal.S256x256, .f32⟩ : BufTy).Contents (Elt Ideal)

/-- `x0` is the tile of `A` in the image's layout: entry (c, hh, w) of the tile is `A` at (b, c, r·8 + hh, cb·128 + w). -/
def IsTile (A : RImg) (b : Fin 4) (r : Fin 32) (cb : Fin 2) (x0 : Vec Ideal Cert.KernelIdeal.S1x256x8x128 .f32) : Prop :=
  ∀ (c : Fin 256) (hh : Fin 8) (w : Fin 128), x0 (ix4 (0 : Fin 1) c hh w) = A (ix4 b c (row r hh) (col cb w))

/-- `v` is the tile of the channel-last `A`: entry (hh, w, c) is `A` at (b, r·8 + hh, cb·128 + w, c). -/
def IsPix (A : RImg) (b : Fin 4) (r : Fin 32) (cb : Fin 2) (v : VI Cert.KernelIdeal.S8x128x256) : Prop :=
  ∀ (hh : Fin 8) (w : Fin 128) (c : Fin 256), v (ix3 hh w c) = A (ix4 b (row r hh) (col cb w) c)

/-- `M` is the tile of the joint product `A`, pixels flattened: entry (hh·128 + w, f) is `A` at (b, r·8 + hh, cb·128 + w, f). -/
def IsJoint (A : RJoint) (b : Fin 4) (r : Fin 32) (cb : Fin 2) (M : VI Cert.KernelIdeal.S1024x768) : Prop :=
  ∀ (hh : Fin 8) (w : Fin 128) (f : Fin 768), M (ix2 (flat hh w) f) = A (ix4 b (row r hh) (col cb w) f)

/-- `q` holds the tile's windows of `A`: entry (nw·4 + hd, t, d) is `A` at (b, r, cb·16 + nw, hd, t, d). -/
def IsWin (A : RWin) (b : Fin 4) (r : Fin 32) (cb : Fin 2) (q : VI Cert.KernelIdeal.S64x64x64) : Prop :=
  ∀ (nw : Fin 16) (hd : Fin 4) (t d : Fin 64), q (ix3 (wh nw hd) t d) = A (ix6 b r (win cb nw) hd t d)

/-- The kernel's parameter vector is the reference's. -/
def IsVec (g : RVec) (x : Vec Ideal Cert.KernelIdeal.S256 .f32) : Prop := ∀ c : Fin 256, x (ix1 c) = g (ix1 c)

/-- The kernel's [256, 768] weight is the transpose of the reference's [768, 256]. -/
def IsWqkvT (W : RWqkv) (x : Vec Ideal Cert.KernelIdeal.S256x768 .f32) : Prop :=
  ∀ (c : Fin 256) (f : Fin 768), x (ix2 c f) = W (ix2 f c)

/-- The kernel's [256, 256] weight is the transpose of the reference's. -/
def IsWoutT (W : RWout) (x : Vec Ideal Cert.KernelIdeal.S256x256 .f32) : Prop :=
  ∀ (c f : Fin 256), x (ix2 c f) = W (ix2 f c)

end Cert.Bridge

end
-- ==== Proof.Ln.lean ====
/-
  The layer norm of a tile is the tile of the layer norm.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

namespace Ln

/-! ## The layer norm of one pixel, as a function of its 256 channel values -/

/-- The mean of 256 values: their sum, divided by the literal 256.0. -/
def mean256 (f : Fin 256 → EReal) : EReal := Ideal.div (∑ k : Fin 256, f k) (Ideal.ofBits .f32 0x43800000#32)

/-- The values centred by their mean. -/
def cen256 (f : Fin 256 → EReal) (k : Fin 256) : EReal := f k - mean256 f

/-- The reciprocal root of the variance (the mean of the squared centred values) plus the literal epsilon. -/
def rstd256 (f : Fin 256 → EReal) : EReal :=
  Ideal.rsqrt (mean256 (fun k => cen256 f k * cen256 f k) + Ideal.ofBits .f32 0x3727C5AC#32)

/-- The layer norm at channel `c`: centred, scaled by the reciprocal root, then by gamma, shifted by beta. -/
def lnPix (f : Fin 256 → EReal) (γ β : EReal) (c : Fin 256) : EReal := cen256 f c * rstd256 f * γ + β

/-! ## The kernel's layouts read at an index -/

section KernelSide
open Cert.KernelIdeal Cert.KernelIdeal.Gen

/-- Channel-last entry (hh, w, c) of the tile is its entry (0, c, hh, w): a cast that drops the unit axis, then the
    transpose that sends axes (c, hh, w) to (hh, w, c). -/
theorem chanLast_apply (x0 : Vec Ideal S1x256x8x128 .f32) (hh : Fin 8) (w : Fin 128) (c : Fin 256) :
    chanLast x0 (ix3 hh w c) = x0 (ix4 (0 : Fin 1) c hh w) := by
  unfold chanLast
  refine (transpose_apply [1, 2, 0] _ _ (ix3 hh w c) (ix3 c hh w) (fun b => match b with
    | ⟨0, _⟩ => rfl
    | ⟨1, _⟩ => rfl
    | ⟨2, _⟩ => rfl)).trans ?_
  refine shapeCast_apply x0 _ (ix3 c hh w) (ix4 (0 : Fin 1) c hh w) ?_
  rw [Shape.rowMajor_val_four, Shape.rowMajor_val_three]
  show ((0 * 256 + c.val) * 8 + hh.val) * 128 + w.val = (c.val * 8 + hh.val) * 128 + w.val
  omega

/-- The sum over the channel axis of a channel-last tile, at pixel (hh, w): the sum of the pixel's 256 entries. -/
theorem chanSum_apply (v : VI S8x128x256) (h : S8x128x256.Reduces [2] S8x128) (hφ : FKind.Formats .f32)
    (hacc : (0x00000000#32 : BitVec 32) = 0x00000000#32) (hh : Fin 8) (w : Fin 128) :
    multiReduction .add [2] S8x128 v 0x00000000#32 h hφ hacc (ix2 hh w) = ∑ k : Fin 256, v (ix3 hh w k) := by
  refine (Ideal.multiReduction_add_single v 0x00000000#32 h hφ hacc (ix2 hh w)).trans ?_
  refine Finset.sum_congr rfl fun k _ => ?_
  exact congrArg v (funext fun a => Fin.ext (by match a with | ⟨0, _⟩ => rfl | ⟨1, _⟩ => rfl | ⟨2, _⟩ => rfl))

/-- A keepdims column [8, 128] → [8, 128, 1] at (hh, w, 0) is the entry (hh, w). -/
theorem castCol_apply (u : VI S8x128) (h : S8x128.ShapeCasts S8x128x1) (hh : Fin 8) (w : Fin 128) (z : Fin 1) :
    shapeCast S8x128x1 u h (ix3 hh w z) = u (ix2 hh w) := by
  refine shapeCast_apply u h (ix3 hh w z) (ix2 hh w) ?_
  rw [Shape.rowMajor_val_two, Shape.rowMajor_val_three]
  show hh.val * 128 + w.val = (hh.val * 128 + w.val) * 1 + z.val
  omega

/-- A column [8, 128, 1] spread over the channels, at (hh, w, c), is the column at (hh, w, 0). -/
theorem bcastCol_apply (y : VI S8x128x1) (h : S8x128x1.Broadcasts S8x128x256) (hh : Fin 8) (w : Fin 128) (c : Fin 256) :
    broadcastTo S8x128x256 y h (ix3 hh w c) = y (ix3 hh w (0 : Fin 1)) := by
  refine broadcastTo_apply y h (ix3 hh w c) (ix3 hh w (0 : Fin 1)) (fun a => match a with
    | ⟨0, _⟩ => by show hh.val = if (8 : Nat) = 1 then 0 else hh.val; rw [if_neg (by decide)]
    | ⟨1, _⟩ => by show w.val = if (128 : Nat) = 1 then 0 else w.val; rw [if_neg (by decide)]
    | ⟨2, _⟩ => by show 0 = if (1 : Nat) = 1 then 0 else c.val; rw [if_pos rfl])

/-- A parameter vector [256] → [1, 1, 256] at (0, 0, c) is its entry c. -/
theorem castVec_apply (g : Vec Ideal S256 .f32) (h : S256.ShapeCasts S1x1x256) (z0 z1 : Fin 1) (c : Fin 256) :
    shapeCast S1x1x256 g h (ix3 z0 z1 c) = g (ix1 c) := by
  refine shapeCast_apply g h (ix3 z0 z1 c) (ix1 c) ?_
  rw [Shape.rowMajor_val_one, Shape.rowMajor_val_three]
  show c.val = (z0.val * 1 + z1.val) * 256 + c.val
  omega

/-- A row [1, 1, 256] spread over the pixels, at (hh, w, c), is the row at (0, 0, c). -/
theorem bcastVec_apply (y : VI S1x1x256) (h : S1x1x256.Broadcasts S8x128x256) (hh : Fin 8) (w : Fin 128) (c : Fin 256) :
    broadcastTo S8x128x256 y h (ix3 hh w c) = y (ix3 (0 : Fin 1) (0 : Fin 1) c) := by
  refine broadcastTo_apply y h (ix3 hh w c) (ix3 (0 : Fin 1) (0 : Fin 1) c) (fun a => match a with
    | ⟨0, _⟩ => by show 0 = if (1 : Nat) = 1 then 0 else hh.val; rw [if_pos rfl]
    | ⟨1, _⟩ => by show 0 = if (1 : Nat) = 1 then 0 else w.val; rw [if_pos rfl]
    | ⟨2, _⟩ => by show c.val = if (256 : Nat) = 1 then 0 else c.val; rw [if_neg (by decide)])

/-! ## The kernel's stages -/

/-- The keepdims column of means over the channels, as the kernel forms it: sum, cast to a column, quotient by 256.0. -/
def kMean (v : VI S8x128x256) : VI S8x128x1 :=
  divf (shapeCast S8x128x1 (multiReduction .add [2] S8x128 v 0x00000000#32 reduces_S8x128x256_S8x128 (.inl rfl) rfl)
    shapeCasts_S8x128_S8x128x1) (broadcast S8x128x1 (Scalar.ofBits .f32 0x43800000#32))

/-- The tile centred by its column of means. -/
def kCen (v : VI S8x128x256) : VI S8x128x256 := subf v (broadcastTo S8x128x256 (kMean v) broadcasts_S8x128x1_S8x128x256)

/-- The column of means at (hh, w, 0) is the mean of the pixel's 256 entries. -/
theorem kMean_apply (v : VI S8x128x256) (hh : Fin 8) (w : Fin 128) (z : Fin 1) :
    kMean v (ix3 hh w z) = mean256 (fun k => v (ix3 hh w k)) := by
  unfold kMean mean256
  refine (divf_apply _ _ _).trans ?_
  refine congrArg₂ Ideal.div ?_ rfl
  exact (castCol_apply _ _ hh w z).trans (chanSum_apply v _ _ _ hh w)

/-- The centred tile at (hh, w, c) is the pixel's entry c centred by the pixel's mean. -/
theorem kCen_apply (v : VI S8x128x256) (hh : Fin 8) (w : Fin 128) (c : Fin 256) :
    kCen v (ix3 hh w c) = cen256 (fun k => v (ix3 hh w k)) c := by
  unfold kCen cen256
  refine (subf_apply _ _ _).trans ?_
  refine congrArg₂ (· - ·) rfl ?_
  exact (bcastCol_apply _ _ hh w c).trans (kMean_apply v hh w 0)

/-- The kernel's layer norm is its stages composed: the variance is the column of means of the squared centred tile. -/
theorem layerNorm_eq (v : VI S8x128x256) (g be : Vec Ideal S256 .f32) :
    layerNorm v g be =
      addf (mulf (mulf (kCen v)
          (broadcastTo S8x128x256 (rsqrt (addf (kMean (mulf (kCen v) (kCen v)))
            (broadcast S8x128x1 (Scalar.ofBits .f32 0x3727C5AC#32)))) broadcasts_S8x128x1_S8x128x256))
          (broadcastTo S8x128x256 (shapeCast S1x1x256 g shapeCasts_S256_S1x1x256) broadcasts_S1x1x256_S8x128x256))
        (broadcastTo S8x128x256 (shapeCast S1x1x256 be shapeCasts_S256_S1x1x256) broadcasts_S1x1x256_S8x128x256) := rfl

/-- The kernel's layer norm at (hh, w, c) is the layer norm of the pixel's 256 entries at channel c. -/
theorem layerNorm_apply (v : VI S8x128x256) (g be : Vec Ideal S256 .f32) (hh : Fin 8) (w : Fin 128) (c : Fin 256) :
    layerNorm v g be (ix3 hh w c) = lnPix (fun k => v (ix3 hh w k)) (g (ix1 c)) (be (ix1 c)) c := by
  rw [layerNorm_eq]
  unfold lnPix
  refine (addf_apply _ _ _).trans ?_
  refine congrArg₂ (· + ·) ?_ ((bcastVec_apply _ _ hh w c).trans (castVec_apply be _ 0 0 c))
  refine (mulf_apply _ _ _).trans ?_
  refine congrArg₂ (· * ·) ?_ ((bcastVec_apply _ _ hh w c).trans (castVec_apply g _ 0 0 c))
  refine (mulf_apply _ _ _).trans ?_
  refine congrArg₂ (· * ·) (kCen_apply v hh w c) ?_
  refine (bcastCol_apply _ _ hh w c).trans ?_
  unfold rstd256
  show Ideal.rsqrt (kMean (mulf (kCen v) (kCen v)) (ix3 hh w (0 : Fin 1)) + Ideal.ofBits .f32 0x3727C5AC#32) = _
  refine congrArg (fun t => Ideal.rsqrt (t + Ideal.ofBits .f32 0x3727C5AC#32)) ?_
  refine (kMean_apply _ hh w 0).trans ?_
  refine congrArg mean256 (funext fun k => ?_)
  refine (mulf_apply _ _ _).trans ?_
  rw [kCen_apply v hh w k]

end KernelSide

/-! ## The reference read at an index -/

section ReferenceSide

/-- The reference's channel-last view at (a, i, j, c) is the image at (a, c, i, j). -/
theorem ref_v0 (X : RImg) (a : Fin 4) (i j c : Fin 256) :
    val_main_v0 (F := Ideal) X (ix4 a i j c) = X (ix4 a c i j) :=
  (val_main_v0_apply X _).trans (congrArg X (funext fun x => match x with
    | ⟨0, _⟩ => rfl | ⟨1, _⟩ => rfl | ⟨2, _⟩ => rfl | ⟨3, _⟩ => rfl))

/-- The reference's sum over the channels at pixel (a, i, j): the zero constant plus the pixel's 256 entries. -/
theorem ref_v1 (X : RImg) (a : Fin 4) (i j : Fin 256) :
    val_main_v1 (F := Ideal) X (ix3 a i j) = ∑ k : Fin 256, X (ix4 a k i j) := by
  refine (val_main_v1_apply X _).trans ?_
  rw [val_main_cst_apply]
  show Ideal.ofBits .f32 0x00000000#32 + _ = _
  rw [Ideal.ofBits_zero_f32, zero_add]
  refine Finset.sum_congr rfl fun k _ => ?_
  refine Eq.trans (congrArg (val_main_v0 (F := Ideal) X) ?_) (ref_v0 X a i j k)
  exact funext fun x => match x with
    | ⟨0, _⟩ => rfl | ⟨1, _⟩ => rfl | ⟨2, _⟩ => rfl | ⟨3, _⟩ => rfl

/-- The reference's keepdims mean at (a, i, j, 0) is the mean of the pixel's 256 entries. -/
theorem ref_v4 (X : RImg) (a : Fin 4) (i j : Fin 256) (z : Fin 1) :
    val_main_v4 (F := Ideal) X (ix4 a i j z) = mean256 (fun k => X (ix4 a k i j)) := by
  unfold mean256
  refine (val_main_v4_apply X _).trans ?_
  show Ideal.div (val_main_v2 (F := Ideal) X (ix4 a i j z)) (val_main_v3 (F := Ideal) (ix4 a i j z)) = _
  refine congrArg₂ Ideal.div ?_ ?_
  · refine (val_main_v2_apply X _).trans ?_
    refine Eq.trans (congrArg (val_main_v1 (F := Ideal) X) ?_) (ref_v1 X a i j)
    exact funext fun x => match x with
      | ⟨0, _⟩ => rfl | ⟨1, _⟩ => rfl | ⟨2, _⟩ => rfl
  · exact (val_main_v3_apply _).trans rfl

/-- The reference's centred value (the one it squares) at (a, i, j, c). -/
theorem ref_v6 (X : RImg) (a : Fin 4) (i j c : Fin 256) :
    val_main_v6 (F := Ideal) X (ix4 a i j c) = cen256 (fun k => X (ix4 a k i j)) c := by
  unfold cen256
  refine (val_main_v6_apply X _).trans ?_
  show val_main_v0 (F := Ideal) X (ix4 a i j c) - val_main_v5 (F := Ideal) X (ix4 a i j c) = _
  refine congrArg₂ (· - ·) (ref_v0 X a i j c) ?_
  refine (val_main_v5_apply X _).trans ?_
  refine Eq.trans (congrArg (val_main_v4 (F := Ideal) X) ?_) (ref_v4 X a i j 0)
  exact funext fun x => match x with
    | ⟨0, _⟩ => rfl | ⟨1, _⟩ => rfl | ⟨2, _⟩ => rfl | ⟨3, _⟩ => rfl

/-- The reference's centred value (the one it scales) at (a, i, j, c): the same. -/
theorem ref_v13 (X : RImg) (a : Fin 4) (i j c : Fin 256) :
    val_main_v13 (F := Ideal) X (ix4 a i j c) = cen256 (fun k => X (ix4 a k i j)) c := by
  unfold cen256
  refine (val_main_v13_apply X _).trans ?_
  show val_main_v0 (F := Ideal) X (ix4 a i j c) - val_main_v12 (F := Ideal) X (ix4 a i j c) = _
  refine congrArg₂ (· - ·) (ref_v0 X a i j c) ?_
  refine (val_main_v12_apply X _).trans ?_
  refine Eq.trans (congrArg (val_main_v4 (F := Ideal) X) ?_) (ref_v4 X a i j 0)
  exact funext fun x => match x with
    | ⟨0, _⟩ => rfl | ⟨1, _⟩ => rfl | ⟨2, _⟩ => rfl | ⟨3, _⟩ => rfl

/-- The reference's sum of squares at pixel (a, i, j). -/
theorem ref_v8 (X : RImg) (a : Fin 4) (i j : Fin 256) :
    val_main_v8 (F := Ideal) X (ix3 a i j)
      = ∑ k : Fin 256, cen256 (fun k => X (ix4 a k i j)) k * cen256 (fun k => X (ix4 a k i j)) k := by
  refine (val_main_v8_apply X _).trans ?_
  rw [val_main_cst_1_apply]
  show Ideal.ofBits .f32 0x00000000#32 + _ = _
  rw [Ideal.ofBits_zero_f32, zero_add]
  refine Finset.sum_congr rfl fun k _ => ?_
  have hidx : idx_main_v8 (ix3 a i j) k = ix4 a i j k := funext fun x => match x with
    | ⟨0, _⟩ => rfl | ⟨1, _⟩ => rfl | ⟨2, _⟩ => rfl | ⟨3, _⟩ => rfl
  refine Eq.trans (congrArg (val_main_v7 (F := Ideal) X) hidx) ?_
  refine (val_main_v7_apply X _).trans ?_
  show val_main_v6 (F := Ideal) X (ix4 a i j k) * val_main_v6 (F := Ideal) X (ix4 a i j k) = _
  rw [ref_v6 X a i j k]

/-- The reference's reciprocal root at (a, i, j, 0). -/
theorem ref_v16 (X : RImg) (a : Fin 4) (i j : Fin 256) (z : Fin 1) :
    val_main_v16 (F := Ideal) X (ix4 a i j z) = rstd256 (fun k => X (ix4 a k i j)) := by
  unfold rstd256
  refine (val_main_v16_apply X _).trans ?_
  show Ideal.rsqrt (val_main_v11 (F := Ideal) X (ix4 a i j z) + val_main_v14 (F := Ideal) (ix4 a i j z)) = _
  refine congrArg₂ (fun s t => Ideal.rsqrt (s + t)) ?_ ((val_main_v14_apply _).trans rfl)
  unfold mean256
  refine (val_main_v11_apply X _).trans ?_
  show Ideal.div (val_main_v9 (F := Ideal) X (ix4 a i j z)) (val_main_v10 (F := Ideal) (ix4 a i j z)) = _
  refine congrArg₂ Ideal.div ?_ ((val_main_v10_apply _).trans rfl)
  refine (val_main_v9_apply X _).trans ?_
  refine Eq.trans (congrArg (val_main_v8 (F := Ideal) X) ?_) (ref_v8 X a i j)
  exact funext fun x => match x with
    | ⟨0, _⟩ => rfl | ⟨1, _⟩ => rfl | ⟨2, _⟩ => rfl

/-- The reference's gamma (or beta) spread over the image, at (a, i, j, c), is the parameter's entry c. -/
theorem ref_v20 (g : RVec) (a : Fin 4) (i j c : Fin 256) :
    val_main_v20 (F := Ideal) g (ix4 a i j c) = g (ix1 c) := by
  refine (val_main_v20_apply g _).trans ?_
  refine (val_main_v19_apply g _).trans ?_
  exact congrArg g (funext fun x => match x with | ⟨0, _⟩ => rfl)

theorem ref_v23 (be : RVec) (a : Fin 4) (i j c : Fin 256) :
    val_main_v23 (F := Ideal) be (ix4 a i j c) = be (ix1 c) := by
  refine (val_main_v23_apply be _).trans ?_
  refine (val_main_v22_apply be _).trans ?_
  exact congrArg be (funext fun x => match x with | ⟨0, _⟩ => rfl)

/-- The reference's layer norm at (a, i, j, c) is the layer norm of the pixel's 256 entries at channel c. -/
theorem ref_v24 (X : RImg) (g be : RVec) (a : Fin 4) (i j c : Fin 256) :
    val_main_v24 (F := Ideal) X g be (ix4 a i j c) = lnPix (fun k => X (ix4 a k i j)) (g (ix1 c)) (be (ix1 c)) c := by
  unfold lnPix
  refine (val_main_v24_apply X g be _).trans ?_
  show val_main_v21 (F := Ideal) X g (ix4 a i j c) + val_main_v23 (F := Ideal) be (ix4 a i j c) = _
  refine congrArg₂ (· + ·) ?_ (ref_v23 be a i j c)
  refine (val_main_v21_apply X g _).trans ?_
  show val_main_v18 (F := Ideal) X (ix4 a i j c) * val_main_v20 (F := Ideal) g (ix4 a i j c) = _
  refine congrArg₂ (· * ·) ?_ (ref_v20 g a i j c)
  refine (val_main_v18_apply X _).trans ?_
  show val_main_v13 (F := Ideal) X (ix4 a i j c) * val_main_v17 (F := Ideal) X (ix4 a i j c) = _
  refine congrArg₂ (· * ·) (ref_v13 X a i j c) ?_
  refine (val_main_v17_apply X _).trans ?_
  refine Eq.trans (congrArg (val_main_v16 (F := Ideal) X) ?_) (ref_v16 X a i j 0)
  exact funext fun x => match x with
    | ⟨0, _⟩ => rfl | ⟨1, _⟩ => rfl | ⟨2, _⟩ => rfl | ⟨3, _⟩ => rfl

end ReferenceSide

end Ln

/-- On a tile of the image, with the reference's gamma and beta, the kernel's layer norm is the tile of the reference's. -/
theorem ln_tile (X : RImg) (g be : RVec) (b : Fin 4) (r : Fin 32) (cb : Fin 2)
    (x0 : Vec Ideal Cert.KernelIdeal.S1x256x8x128 .f32) (x1 x2 : Vec Ideal Cert.KernelIdeal.S256 .f32)
    (hx : IsTile X b r cb x0) (hg : IsVec g x1) (hb : IsVec be x2) :
    IsPix (val_main_v24 (F := Ideal) X g be) b r cb (layerNorm (chanLast x0) x1 x2) := by
  intro hh w c
  -- both sides are the layer norm of the same 256 values: the image's channels at pixel (b, r·8 + hh, cb·128 + w)
  rw [Ln.layerNorm_apply, Ln.ref_v24, hg c, hb c]
  refine congrArg (fun f => Ln.lnPix f (g (ix1 c)) (be (ix1 c)) c) (funext fun k => ?_)
  exact (Ln.chanLast_apply x0 hh w k).trans (hx k hh w)

end Cert.Bridge

end
-- ==== Proof.Qkv.lean ====
/-
  The joint query / key / value product of a tile is the tile of the product.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-- The left operand's row axis is the product's row axis. -/
theorem qkv_lhs_0 (i : Cert.KernelIdeal.S1024x768.Idx) (q : Cert.KernelIdeal.dot_S1024x256_S256x768_S1024x768_1_0_0_1_n_n.contr.Idx) :
    (Cert.KernelIdeal.dot_S1024x256_S256x768_S1024x768_1_0_0_1_n_n.lhsIdx i q 0).val = (i 0).val := by
  unfold DotDims.lhsIdx
  rw [dif_neg (show ¬(0 : Fin Cert.KernelIdeal.S1024x256.rank) ∈ Cert.KernelIdeal.dot_S1024x256_S256x768_S1024x768_1_0_0_1_n_n.lhsBatch by decide), dif_pos (show (0 : Fin Cert.KernelIdeal.S1024x256.rank) ∈ Cert.KernelIdeal.dot_S1024x256_S256x768_S1024x768_1_0_0_1_n_n.lhsNonContracting by decide)]
  rfl
/-- The left operand's column axis is the contraction's one coordinate. -/
theorem qkv_lhs_1 (i : Cert.KernelIdeal.S1024x768.Idx) (q : Cert.KernelIdeal.dot_S1024x256_S256x768_S1024x768_1_0_0_1_n_n.contr.Idx) :
    (Cert.KernelIdeal.dot_S1024x256_S256x768_S1024x768_1_0_0_1_n_n.lhsIdx i q 1).val = (q ⟨0, by decide⟩).val :=
  Cert.KernelIdeal.dot_S1024x256_S256x768_S1024x768_1_0_0_1_n_n.lhsIdx_val_of_single rfl i q
/-- The right operand's row axis is the contraction's one coordinate. -/
theorem qkv_rhs_0 (i : Cert.KernelIdeal.S1024x768.Idx) (q : Cert.KernelIdeal.dot_S1024x256_S256x768_S1024x768_1_0_0_1_n_n.contr.Idx) :
    (Cert.KernelIdeal.dot_S1024x256_S256x768_S1024x768_1_0_0_1_n_n.rhsIdx i q 0).val = (q ⟨0, by decide⟩).val :=
  Cert.KernelIdeal.dot_S1024x256_S256x768_S1024x768_1_0_0_1_n_n.rhsIdx_val_of_single rfl i q
/-- The right operand's column axis is the product's column axis. -/
theorem qkv_rhs_1 (i : Cert.KernelIdeal.S1024x768.Idx) (q : Cert.KernelIdeal.dot_S1024x256_S256x768_S1024x768_1_0_0_1_n_n.contr.Idx) :
    (Cert.KernelIdeal.dot_S1024x256_S256x768_S1024x768_1_0_0_1_n_n.rhsIdx i q 1).val = (i 1).val := by
  unfold DotDims.rhsIdx
  rw [dif_neg (show ¬(1 : Fin Cert.KernelIdeal.S256x768.rank) ∈ Cert.KernelIdeal.dot_S1024x256_S256x768_S1024x768_1_0_0_1_n_n.rhsBatch by decide), dif_pos (show (1 : Fin Cert.KernelIdeal.S256x768.rank) ∈ Cert.KernelIdeal.dot_S1024x256_S256x768_S1024x768_1_0_0_1_n_n.rhsNonContracting by decide)]
  rfl

/-- From the tile of the normalized image and the transposed weight, the kernel's joint product is the tile of the reference's. -/
theorem qkv_tile (X : RImg) (g be : RVec) (Wq : RWqkv) (b : Fin 4) (r : Fin 32) (cb : Fin 2)
    (xn : VI Cert.KernelIdeal.S8x128x256) (x3 : Vec Ideal Cert.KernelIdeal.S256x768 .f32)
    (hxn : IsPix (val_main_v24 (F := Ideal) X g be) b r cb xn) (hw : IsWqkvT Wq x3) :
    IsJoint (val_main_v25 (F := Ideal) X g be Wq) b r cb (qkv xn x3) := by
  unfold IsJoint
  intro hh w f
  unfold qkv
  -- entry (hh·128 + w, f) of the product is the sum over the 256 channels k of
  -- the pixel's channel k times the weight's entry (k, f)
  refine (Ideal.matmul_constant_zero_apply Cert.KernelIdeal.dot_S1024x256_S256x768_S1024x768_1_0_0_1_n_n none _ _ (ix2 (flat hh w) f)).trans ?_
  rw [← Equiv.sum_comp (contrEquiv1 Cert.KernelIdeal.dot_S1024x256_S256x768_S1024x768_1_0_0_1_n_n 256 rfl rfl).symm, val_main_v25_apply]
  refine Finset.sum_congr rfl fun k _ => ?_
  have hk := contrEquiv1_symm_val Cert.KernelIdeal.dot_S1024x256_S256x768_S1024x768_1_0_0_1_n_n 256 rfl rfl k
  have el : Cert.KernelIdeal.dot_S1024x256_S256x768_S1024x768_1_0_0_1_n_n.lhsIdx (ix2 (flat hh w) f) ((contrEquiv1 Cert.KernelIdeal.dot_S1024x256_S256x768_S1024x768_1_0_0_1_n_n 256 rfl rfl).symm k) = ix2 (flat hh w) k := funext fun a => Fin.ext (by
    match a with
    | ⟨0, _⟩ => exact qkv_lhs_0 _ _
    | ⟨1, _⟩ => exact (qkv_lhs_1 _ _).trans hk)
  have er : Cert.KernelIdeal.dot_S1024x256_S256x768_S1024x768_1_0_0_1_n_n.rhsIdx (ix2 (flat hh w) f) ((contrEquiv1 Cert.KernelIdeal.dot_S1024x256_S256x768_S1024x768_1_0_0_1_n_n 256 rfl rfl).symm k) = ix2 k f := funext fun a => Fin.ext (by
    match a with
    | ⟨0, _⟩ => exact (qkv_rhs_0 _ _).trans hk
    | ⟨1, _⟩ => exact qkv_rhs_1 _ _)
  rw [el, er]
  refine congrArg₂ (· * ·) ?_ ?_
  · -- the left factor: the flattened pixel (hh·128 + w, k) is the pixel (hh, w, k) of the tile, same row-major position
    refine (shapeCast_apply xn _ (ix2 (flat hh w) k) (ix3 hh w k) ?_).trans ?_
    · rw [Shape.rowMajor_val_three, Shape.rowMajor_val_two]
      rfl
    · refine (hxn hh w k).trans ?_
      exact congrArg (val_main_v24 (F := Ideal) X g be) (funext fun a => by
        match a with
        | ⟨0, _⟩ => rfl
        | ⟨1, _⟩ => rfl
        | ⟨2, _⟩ => rfl
        | ⟨3, _⟩ => rfl)
  · -- the right factor: the kernel's weight at (k, f) is the reference's at (f, k)
    refine (congrFun (shapeCast_self x3 _) (ix2 k f)).trans ?_
    refine (hw k f).trans ?_
    exact congrArg Wq (funext fun a => by
      match a with
      | ⟨0, _⟩ => rfl
      | ⟨1, _⟩ => rfl)

end Cert.Bridge

end
-- ==== Proof.Windows.lean ====
/-
  The three thirds of the joint product of a tile, laid out by window and head, are the tile's windows of the reference's
  queries, keys and values.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-- The kernel's window layout read at an index. The [1024, 256] third is cut as (hh, nw, ww, hd, d) with pixel
    hh·128 + nw·8 + ww and channel hd·64 + d, its axes are permuted to (nw, hd, hh, ww, d), and it is regrouped as
    (nw·4 + hd, hh·8 + ww, d): the three steps keep the row-major position, move the coordinates, and keep the position
    again, so the entry at ((nw, hd), (hh, ww), d) is the third's entry at pixel (hh, nw·8 + ww) and channel hd·64 + d. -/
theorem toWindows_apply (t : VI Cert.KernelIdeal.S1024x256) (nw : Fin 16) (hd : Fin 4) (hh ww : Fin 8) (d : Fin 64) :
    toWindows t (ix3 (wh nw hd) (tok hh ww) d) = t (ix2 (flat hh (lane nw ww)) (chan hd d)) := by
  unfold toWindows
  refine (shapeCast_apply
    (transpose Cert.KernelIdeal.S16x4x8x8x64 [1, 3, 0, 2, 4]
      (shapeCast Cert.KernelIdeal.S8x16x8x4x64 t Cert.KernelIdeal.Gen.shapeCasts_S1024x256_S8x16x8x4x64)
      Cert.KernelIdeal.Gen.transposes_S8x16x8x4x64_p1_3_0_2_4_S16x4x8x8x64)
    Cert.KernelIdeal.Gen.shapeCasts_S16x4x8x8x64_S64x64x64 (ix3 (wh nw hd) (tok hh ww) d) (ix5 nw hd hh ww d) ?_).trans ?_
  · rw [Shape.rowMajor_val_five, Shape.rowMajor_val_three]
    show (((nw.val * 4 + hd.val) * 8 + hh.val) * 8 + ww.val) * 64 + d.val
      = ((nw.val * 4 + hd.val) * 64 + (hh.val * 8 + ww.val)) * 64 + d.val
    omega
  refine (transpose_apply [1, 3, 0, 2, 4]
    (shapeCast Cert.KernelIdeal.S8x16x8x4x64 t Cert.KernelIdeal.Gen.shapeCasts_S1024x256_S8x16x8x4x64)
    Cert.KernelIdeal.Gen.transposes_S8x16x8x4x64_p1_3_0_2_4_S16x4x8x8x64 (ix5 nw hd hh ww d) (ix5 hh nw ww hd d)
    (fun a => match a with
      | ⟨0, _⟩ => rfl
      | ⟨1, _⟩ => rfl
      | ⟨2, _⟩ => rfl
      | ⟨3, _⟩ => rfl
      | ⟨4, _⟩ => rfl)).trans ?_
  refine shapeCast_apply t Cert.KernelIdeal.Gen.shapeCasts_S1024x256_S8x16x8x4x64 (ix5 hh nw ww hd d)
    (ix2 (flat hh (lane nw ww)) (chan hd d)) ?_
  rw [Shape.rowMajor_val_two, Shape.rowMajor_val_five]
  show (hh.val * 128 + (nw.val * 8 + ww.val)) * 256 + (hd.val * 64 + d.val)
    = (((hh.val * 16 + nw.val) * 8 + ww.val) * 4 + hd.val) * 64 + d.val
  omega

/-- The window layout of the third of the joint product that starts at column j·256: its entry at
    ((nw, hd), (hh, ww), d) is the product's entry at pixel (hh, nw·8 + ww) and column j·256 + hd·64 + d. -/
theorem thirdWindows_apply (M : VI Cert.KernelIdeal.S1024x768) (off : Nat) (j : Fin 3) (hoff : off = j.val * 256)
    (hs : Cert.KernelIdeal.S1024x768.Slices ![0, off] Cert.KernelIdeal.S1024x256)
    (nw : Fin 16) (hd : Fin 4) (hh ww : Fin 8) (d : Fin 64) :
    toWindows (extractStridedSlice Cert.KernelIdeal.S1024x256 ![0, off] M hs) (ix3 (wh nw hd) (tok hh ww) d)
      = M (ix2 (flat hh (lane nw ww)) (third j (chan hd d))) := by
  subst hoff
  refine (toWindows_apply _ nw hd hh ww d).trans ?_
  exact extractStridedSlice_apply ![0, j.val * 256] M hs (ix2 (flat hh (lane nw ww)) (chan hd d))
    (ix2 (flat hh (lane nw ww)) (third j (chan hd d))) (fun a => match a with
      | ⟨0, _⟩ => by
        show hh.val * 128 + (nw.val * 8 + ww.val) = 0 + (hh.val * 128 + (nw.val * 8 + ww.val)); omega
      | ⟨1, _⟩ => by
        show j.val * 256 + (hd.val * 64 + d.val) = j.val * 256 + (hd.val * 64 + d.val); rfl)

/-- The reference's window layout read at an index, for any [4, 256, 256, 768] array and its third that starts at
    column j·256. The third is cut as (b, r, hh, cw, ww, hd, d) with image row r·8 + hh, image column cw·8 + ww and
    channel hd·64 + d, permuted to (b, r, cw, hd, hh, ww, d), and regrouped as (b, r, cw, hd, hh·8 + ww, d). At window
    column cw = cb·16 + nw the image column is cb·128 + nw·8 + ww, so the entry at (b, r, cb·16 + nw, hd, hh·8 + ww, d)
    is the array's entry at (b, r·8 + hh, cb·128 + nw·8 + ww, j·256 + hd·64 + d). -/
theorem refThirdWindows_apply {α : Type} (Y : Cert.ReferenceIdeal.S4x256x256x768.Idx → α) (off : Nat) (j : Fin 3)
    (hoff : off = j.val * 256)
    (hs : Cert.ReferenceIdeal.S4x256x256x768.Slices ![0, 0, 0, off] Cert.ReferenceIdeal.S4x256x256x256)
    (h1 : Cert.ReferenceIdeal.S4x256x256x256.ShapeCasts Cert.ReferenceIdeal.S4x32x8x32x8x4x64)
    (h2 : Cert.ReferenceIdeal.S4x32x8x32x8x4x64.Transposes [0, 1, 3, 5, 2, 4, 6] Cert.ReferenceIdeal.S4x32x32x4x8x8x64)
    (h3 : Cert.ReferenceIdeal.S4x32x32x4x8x8x64.ShapeCasts Cert.ReferenceIdeal.S4x32x32x4x64x64)
    (b : Fin 4) (r : Fin 32) (cb : Fin 2) (nw : Fin 16) (hd : Fin 4) (hh ww : Fin 8) (d : Fin 64) :
    shapeCast Cert.ReferenceIdeal.S4x32x32x4x64x64
        (transpose Cert.ReferenceIdeal.S4x32x32x4x8x8x64 [0, 1, 3, 5, 2, 4, 6]
          (shapeCast Cert.ReferenceIdeal.S4x32x8x32x8x4x64
            (extractStridedSlice Cert.ReferenceIdeal.S4x256x256x256 ![0, 0, 0, off] Y hs) h1) h2) h3
        (ix6 b r (win cb nw) hd (tok hh ww) d)
      = Y (ix4 b (row r hh) (col cb (lane nw ww)) (third j (chan hd d))) := by
  subst hoff
  refine (shapeCast_apply
    (transpose Cert.ReferenceIdeal.S4x32x32x4x8x8x64 [0, 1, 3, 5, 2, 4, 6]
      (shapeCast Cert.ReferenceIdeal.S4x32x8x32x8x4x64
        (extractStridedSlice Cert.ReferenceIdeal.S4x256x256x256 ![0, 0, 0, j.val * 256] Y hs) h1) h2) h3
    (ix6 b r (win cb nw) hd (tok hh ww) d) (ix7 b r (win cb nw) hd hh ww d) ?_).trans ?_
  · rw [Shape.rowMajor_val_seven, Shape.rowMajor_val_six]
    show (((((b.val * 32 + r.val) * 32 + (cb.val * 16 + nw.val)) * 4 + hd.val) * 8 + hh.val) * 8 + ww.val) * 64 + d.val
      = ((((b.val * 32 + r.val) * 32 + (cb.val * 16 + nw.val)) * 4 + hd.val) * 64 + (hh.val * 8 + ww.val)) * 64 + d.val
    omega
  refine (transpose_apply [0, 1, 3, 5, 2, 4, 6]
    (shapeCast Cert.ReferenceIdeal.S4x32x8x32x8x4x64
      (extractStridedSlice Cert.ReferenceIdeal.S4x256x256x256 ![0, 0, 0, j.val * 256] Y hs) h1) h2
    (ix7 b r (win cb nw) hd hh ww d) (ix7 b r hh (win cb nw) ww hd d) (fun a => match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl)).trans ?_
  refine (shapeCast_apply
    (extractStridedSlice Cert.ReferenceIdeal.S4x256x256x256 ![0, 0, 0, j.val * 256] Y hs) h1
    (ix7 b r hh (win cb nw) ww hd d) (ix4 b (row r hh) (col cb (lane nw ww)) (chan hd d)) ?_).trans ?_
  · rw [Shape.rowMajor_val_four, Shape.rowMajor_val_seven]
    show ((b.val * 256 + (r.val * 8 + hh.val)) * 256 + (cb.val * 128 + (nw.val * 8 + ww.val))) * 256 + (hd.val * 64 + d.val)
      = (((((b.val * 32 + r.val) * 8 + hh.val) * 32 + (cb.val * 16 + nw.val)) * 8 + ww.val) * 4 + hd.val) * 64 + d.val
    omega
  exact extractStridedSlice_apply ![0, 0, 0, j.val * 256] Y hs (ix4 b (row r hh) (col cb (lane nw ww)) (chan hd d))
    (ix4 b (row r hh) (col cb (lane nw ww)) (third j (chan hd d))) (fun a => match a with
      | ⟨0, _⟩ => by show b.val = 0 + b.val; omega
      | ⟨1, _⟩ => by show r.val * 8 + hh.val = 0 + (r.val * 8 + hh.val); omega
      | ⟨2, _⟩ => by
        show cb.val * 128 + (nw.val * 8 + ww.val) = 0 + (cb.val * 128 + (nw.val * 8 + ww.val)); omega
      | ⟨3, _⟩ => by
        show j.val * 256 + (hd.val * 64 + d.val) = j.val * 256 + (hd.val * 64 + d.val); rfl)

/-- The queries. -/
theorem winQ_tile (X : RImg) (g be : RVec) (Wq : RWqkv) (b : Fin 4) (r : Fin 32) (cb : Fin 2) (M : VI Cert.KernelIdeal.S1024x768)
    (hM : IsJoint (val_main_v25 (F := Ideal) X g be Wq) b r cb M) :
    IsWin (val_main_v31 (F := Ideal) X g be Wq) b r cb (winQ M) := by
  unfold IsWin
  intro nw hd t d
  obtain ⟨hh, ww, rfl⟩ := tok_surj t
  unfold IsJoint at hM
  unfold winQ
  refine (thirdWindows_apply M 0 0 (by decide) Cert.KernelIdeal.Gen.slices_S1024x768_o0_0_S1024x256 nw hd hh ww d).trans ?_
  refine (hM hh (lane nw ww) (third 0 (chan hd d))).trans ?_
  unfold val_main_v31 val_main_v30 val_main_v29 val_main_v26
  exact (refThirdWindows_apply (val_main_v25 (F := Ideal) X g be Wq) 0 0 (by decide) _ _ _ _ b r cb nw hd hh ww d).symm

/-- The keys. -/
theorem winK_tile (X : RImg) (g be : RVec) (Wq : RWqkv) (b : Fin 4) (r : Fin 32) (cb : Fin 2) (M : VI Cert.KernelIdeal.S1024x768)
    (hM : IsJoint (val_main_v25 (F := Ideal) X g be Wq) b r cb M) :
    IsWin (val_main_v34 (F := Ideal) X g be Wq) b r cb (winK M) := by
  unfold IsWin
  intro nw hd t d
  obtain ⟨hh, ww, rfl⟩ := tok_surj t
  unfold IsJoint at hM
  unfold winK
  refine (thirdWindows_apply M 256 1 (by decide) Cert.KernelIdeal.Gen.slices_S1024x768_o0_256_S1024x256 nw hd hh ww d).trans ?_
  refine (hM hh (lane nw ww) (third 1 (chan hd d))).trans ?_
  unfold val_main_v34 val_main_v33 val_main_v32 val_main_v27
  exact (refThirdWindows_apply (val_main_v25 (F := Ideal) X g be Wq) 256 1 (by decide) _ _ _ _ b r cb nw hd hh ww d).symm

/-- The values. -/
theorem winV_tile (X : RImg) (g be : RVec) (Wq : RWqkv) (b : Fin 4) (r : Fin 32) (cb : Fin 2) (M : VI Cert.KernelIdeal.S1024x768)
    (hM : IsJoint (val_main_v25 (F := Ideal) X g be Wq) b r cb M) :
    IsWin (val_main_v37 (F := Ideal) X g be Wq) b r cb (winV M) := by
  unfold IsWin
  intro nw hd t d
  obtain ⟨hh, ww, rfl⟩ := tok_surj t
  unfold IsJoint at hM
  unfold winV
  refine (thirdWindows_apply M 512 2 (by decide) Cert.KernelIdeal.Gen.slices_S1024x768_o0_512_S1024x256 nw hd hh ww d).trans ?_
  refine (hM hh (lane nw ww) (third 2 (chan hd d))).trans ?_
  unfold val_main_v37 val_main_v36 val_main_v35 val_main_v28
  exact (refThirdWindows_apply (val_main_v25 (F := Ideal) X g be Wq) 512 2 (by decide) _ _ _ _ b r cb nw hd hh ww d).symm

end Cert.Bridge

end
-- ==== Proof.Scores.lean ====
/-
  The scaled scores of the tile's windows.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-! The kernel's product of queries and keys has one batch axis (axis 0 of both operands and of the result), one free
    axis on each side (axis 1 of each operand: axes 1 and 2 of the result) and contracts axis 2 of both. The six lemmas
    below read the operands' indices at result index `i` and contraction position `p`, one axis at a time. -/

/-- Left operand, batch axis: the result's axis 0. -/
theorem lhs_scores_0 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.lhsIdx i p 0).val = (i 0).val := by
  unfold DotDims.lhsIdx
  rw [dif_pos (show (0 : Fin Cert.KernelIdeal.S64x64x64.rank) ∈ Cert.KernelIdeal.dot_S64x64x64_S64x64x64_S64x64x64_2_2_1_1_0_0.lhsBatch by decide)]
  rfl
/-- Left operand, free axis: the result's axis 1 (the query's token). -/
theorem lhs_scores_1 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.lhsIdx i p 1).val = (i 1).val := by
  unfold DotDims.lhsIdx
  rw [dif_neg (show ¬(1 : Fin Cert.KernelIdeal.S64x64x64.rank) ∈ Cert.KernelIdeal.dot_S64x64x64_S64x64x64_S64x64x64_2_2_1_1_0_0.lhsBatch by decide), dif_pos (show (1 : Fin Cert.KernelIdeal.S64x64x64.rank) ∈ Cert.KernelIdeal.dot_S64x64x64_S64x64x64_S64x64x64_2_2_1_1_0_0.lhsNonContracting by decide)]
  rfl
/-- Left operand, contracted axis: the contraction position. -/
theorem lhs_scores_2 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.lhsIdx i p 2).val = (p ⟨0, by decide⟩).val :=
  Cert.KernelIdeal.dot_S64x64x64_S64x64x64_S64x64x64_2_2_1_1_0_0.lhsIdx_val_of_single rfl i p
/-- Right operand, batch axis: the result's axis 0. -/
theorem rhs_scores_0 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.rhsIdx i p 0).val = (i 0).val := by
  unfold DotDims.rhsIdx
  rw [dif_pos (show (0 : Fin Cert.KernelIdeal.S64x64x64.rank) ∈ Cert.KernelIdeal.dot_S64x64x64_S64x64x64_S64x64x64_2_2_1_1_0_0.rhsBatch by decide)]
  rfl
/-- Right operand, free axis: the result's axis 2 (the key's token). -/
theorem rhs_scores_1 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.rhsIdx i p 1).val = (i 2).val := by
  unfold DotDims.rhsIdx
  rw [dif_neg (show ¬(1 : Fin Cert.KernelIdeal.S64x64x64.rank) ∈ Cert.KernelIdeal.dot_S64x64x64_S64x64x64_S64x64x64_2_2_1_1_0_0.rhsBatch by decide), dif_pos (show (1 : Fin Cert.KernelIdeal.S64x64x64.rank) ∈ Cert.KernelIdeal.dot_S64x64x64_S64x64x64_S64x64x64_2_2_1_1_0_0.rhsNonContracting by decide)]
  rfl
/-- Right operand, contracted axis: the contraction position. -/
theorem rhs_scores_2 (i : Cert.KernelIdeal.S64x64x64.Idx) (p : Cert.KernelIdeal.dot_S64x64x64_S64x64x64_S64x64x64_2_2_1_1_0_0.contr.Idx) :
    (Cert.KernelIdeal.dot_S64x64x64_S64x64x64_S64x64x64_2_2_1_1_0_0.rhsIdx i p 2).val = (p ⟨0, by decide⟩).val :=
  Cert.KernelIdeal.dot_S64x64x64_S64x64x64_S64x64x64_2_2_1_1_0_0.rhsIdx_val_of_single rfl i p

/-- The kernel's scores at (n, t, u): the sum over the 64 positions d of q (n, t, d) · k (n, u, d), times the scalar
    one eighth (kept as its word). The narrowing of both operands is the identity on extended reals, and the
    accumulator is the zero splat. -/
theorem scores_apply (q k : VI Cert.KernelIdeal.S64x64x64) (n t u : Fin 64) :
    scores q k (ix3 n t u)
      = (∑ d : Fin 64, q (ix3 n t d) * k (ix3 n u d)) * Ideal.ofBits .f32 0x3E000000#32 := by
  unfold scores
  refine (mulf_apply _ _ (ix3 n t u)).trans ?_
  refine congrArg (fun x => x * Ideal.ofBits .f32 0x3E000000#32) ?_
  refine (Ideal.matmul_constant_zero_apply Cert.KernelIdeal.dot_S64x64x64_S64x64x64_S64x64x64_2_2_1_1_0_0 none _ _ (ix3 n t u)).trans ?_
  rw [← Equiv.sum_comp (contrEquiv1 Cert.KernelIdeal.dot_S64x64x64_S64x64x64_S64x64x64_2_2_1_1_0_0 64 rfl rfl).symm]
  refine Finset.sum_congr rfl fun d _ => ?_
  have hd := contrEquiv1_symm_val Cert.KernelIdeal.dot_S64x64x64_S64x64x64_S64x64x64_2_2_1_1_0_0 64 rfl rfl d
  have el : Cert.KernelIdeal.dot_S64x64x64_S64x64x64_S64x64x64_2_2_1_1_0_0.lhsIdx (ix3 n t u) ((contrEquiv1 Cert.KernelIdeal.dot_S64x64x64_S64x64x64_S64x64x64_2_2_1_1_0_0 64 rfl rfl).symm d) = ix3 n t d := funext fun a => Fin.ext (by
    match a with
    | ⟨0, _⟩ => exact lhs_scores_0 _ _
    | ⟨1, _⟩ => exact lhs_scores_1 _ _
    | ⟨2, _⟩ => exact (lhs_scores_2 _ _).trans hd)
  have er : Cert.KernelIdeal.dot_S64x64x64_S64x64x64_S64x64x64_2_2_1_1_0_0.rhsIdx (ix3 n t u) ((contrEquiv1 Cert.KernelIdeal.dot_S64x64x64_S64x64x64_S64x64x64_2_2_1_1_0_0 64 rfl rfl).symm d) = ix3 n u d := funext fun a => Fin.ext (by
    match a with
    | ⟨0, _⟩ => exact rhs_scores_0 _ _
    | ⟨1, _⟩ => exact rhs_scores_1 _ _
    | ⟨2, _⟩ => exact (rhs_scores_2 _ _).trans hd)
  rw [el, er]
  rfl

/-- From the tile's queries and keys, the kernel's scores are the tile's windows of the reference's scaled scores. -/
theorem scores_tile (X : RImg) (g be : RVec) (Wq : RWqkv) (b : Fin 4) (r : Fin 32) (cb : Fin 2) (q k : VI Cert.KernelIdeal.S64x64x64)
    (hq : IsWin (val_main_v31 (F := Ideal) X g be Wq) b r cb q)
    (hk : IsWin (val_main_v34 (F := Ideal) X g be Wq) b r cb k) :
    IsWin (val_main_v40 (F := Ideal) X g be Wq) b r cb (scores q k) := by
  unfold IsWin at *
  intro nw hd t u
  -- the kernel's side: the sum over the head's positions, then the hypotheses on the queries and the keys
  rw [scores_apply q k (wh nw hd) t u]
  -- the reference's side: the product with the broadcast scalar, then the batched contraction over axis 5
  rw [val_main_v40_apply, val_main_v39_apply, val_main_cst_4_apply, val_main_v38_apply]
  refine congrArg (fun x => x * Ideal.ofBits .f32 0x3E000000#32) ?_
  refine Finset.sum_congr rfl fun d _ => ?_
  rw [hq nw hd t d, hk nw hd u d]
  have el : lidx_main_v38 (ix6 b r (win cb nw) hd t u) d = ix6 b r (win cb nw) hd t d := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  have er : ridx_main_v38 (ix6 b r (win cb nw) hd t u) d = ix6 b r (win cb nw) hd u d := funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)
  rw [el, er]

end Cert.Bridge

end
-- ==== Proof.Softmax.lean ====
/-
  The row softmax of the tile's windows.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-- Minus infinity, the value both programs start a row's maximum from. -/
private abbrev negInf : Ideal .f32 := Ideal.ofBits .f32 0xFF800000#32

/-- The softmax of one row f of 64 scores at position d: with m the larger of minus infinity and the row's maximum
    (itself taken from minus infinity), the exponential of f d - m over the sum over k of the exponentials of
    f k - m. -/
private def rowSoftmax (f : Fin 64 → Ideal .f32) (d : Fin 64) : Ideal .f32 :=
  Ideal.div (Ideal.exp (f d - max negInf (Finset.univ.fold max negInf f)))
    (∑ k : Fin 64, Ideal.exp (f k - max negInf (Finset.univ.fold max negInf f)))

/-! ## The kernel's side -/

/-- The maximum over axis 2 of a [64, 64, 64] array at (a, t) is the fold of max from minus infinity over the row
    k ↦ (a, t, k). -/
private theorem kernel_rowMax (s : VI Cert.KernelIdeal.S64x64x64) (hacc : (0xFF800000#32 : BitVec 32) = 0xFF800000#32) (a t : Fin 64) :
    multiReduction .maximumf [2] Cert.KernelIdeal.S64x64 s 0xFF800000#32 Cert.KernelIdeal.Gen.reduces_S64x64x64_S64x64 (.inl rfl) hacc (ix2 a t)
      = Finset.univ.fold max negInf (fun k : Fin 64 => s (ix3 a t k)) := by
  refine (Ideal.multiReduction_maximumf_single s _ Cert.KernelIdeal.Gen.reduces_S64x64x64_S64x64 (.inl rfl) hacc (ix2 a t)).trans ?_
  have hf : (s ∘ Cert.KernelIdeal.Gen.reduces_S64x64x64_S64x64.lift (ix2 a t)) = fun k : Fin 64 => s (ix3 a t k) :=
    funext fun k => congrArg s (funext fun c => Fin.ext (by
      match c with | ⟨0, _⟩ => rfl | ⟨1, _⟩ => rfl | ⟨2, _⟩ => rfl))
  exact congrArg (fun f => Finset.fold max negInf f (Finset.univ : Finset (Fin 64))) hf

/-- The sum over axis 2 of a [64, 64, 64] array at (a, t) is the sum over k of the array at (a, t, k). -/
private theorem kernel_rowSum (e : VI Cert.KernelIdeal.S64x64x64) (hacc : (0x00000000#32 : BitVec 32) = 0x00000000#32) (a t : Fin 64) :
    multiReduction .add [2] Cert.KernelIdeal.S64x64 e 0x00000000#32 Cert.KernelIdeal.Gen.reduces_S64x64x64_S64x64 (.inl rfl) hacc (ix2 a t)
      = ∑ k : Fin 64, e (ix3 a t k) := by
  refine (Ideal.multiReduction_add_single e _ Cert.KernelIdeal.Gen.reduces_S64x64x64_S64x64 (.inl rfl) hacc (ix2 a t)).trans ?_
  refine Finset.sum_congr rfl fun k _ => ?_
  exact congrArg e (funext fun c => Fin.ext (by
    match c with | ⟨0, _⟩ => rfl | ⟨1, _⟩ => rfl | ⟨2, _⟩ => rfl))

/-- A [64, 64] array seen as a column [64, 64, 1] and spread over 64 positions reads, at (a, t, d), the array at (a, t). -/
private theorem kernel_column (x : VI Cert.KernelIdeal.S64x64) (a t d : Fin 64) :
    broadcastTo Cert.KernelIdeal.S64x64x64 (shapeCast Cert.KernelIdeal.S64x64x1 x Cert.KernelIdeal.Gen.shapeCasts_S64x64_S64x64x1)
      Cert.KernelIdeal.Gen.broadcasts_S64x64x1_S64x64x64 (ix3 a t d) = x (ix2 a t) := by
  refine (broadcastTo_apply _ Cert.KernelIdeal.Gen.broadcasts_S64x64x1_S64x64x64 (ix3 a t d) (ix3 a t (0 : Fin 1)) ?_).trans ?_
  · intro c
    match c with
    | ⟨0, _⟩ => show a.val = if (64 : Nat) = 1 then 0 else a.val; rw [if_neg (by decide)]
    | ⟨1, _⟩ => show t.val = if (64 : Nat) = 1 then 0 else t.val; rw [if_neg (by decide)]
    | ⟨2, _⟩ => show (0 : Nat) = if (1 : Nat) = 1 then 0 else d.val; rw [if_pos rfl]
  · refine shapeCast_apply x Cert.KernelIdeal.Gen.shapeCasts_S64x64_S64x64x1 (ix3 a t (0 : Fin 1)) (ix2 a t) ?_
    rw [Shape.rowMajor_val_two, Shape.rowMajor_val_three]
    show a.val * 64 + t.val = (a.val * 64 + t.val) * 1 + 0
    omega

/-- The kernel's row maxima: each row's maximum, once more against minus infinity. -/
private def kMax (s : VI Cert.KernelIdeal.S64x64x64) : VI Cert.KernelIdeal.S64x64 :=
  maximumf (broadcast Cert.KernelIdeal.S64x64 (Scalar.ofBits .f32 0xFF800000#32))
    (multiReduction .maximumf [2] Cert.KernelIdeal.S64x64 s 0xFF800000#32 Cert.KernelIdeal.Gen.reduces_S64x64x64_S64x64 (.inl rfl) rfl)

/-- The kernel's exponentials: of each score less its row's maximum. -/
private def kExp (s : VI Cert.KernelIdeal.S64x64x64) : VI Cert.KernelIdeal.S64x64x64 :=
  exp (subf s (broadcastTo Cert.KernelIdeal.S64x64x64
    (shapeCast Cert.KernelIdeal.S64x64x1 (kMax s) Cert.KernelIdeal.Gen.shapeCasts_S64x64_S64x64x1)
    Cert.KernelIdeal.Gen.broadcasts_S64x64x1_S64x64x64))

/-- The kernel's softmax is its exponentials over the column of their row sums. -/
private theorem softmax_eq (s : VI Cert.KernelIdeal.S64x64x64) :
    softmax s = divf (kExp s) (broadcastTo Cert.KernelIdeal.S64x64x64
      (shapeCast Cert.KernelIdeal.S64x64x1
        (multiReduction .add [2] Cert.KernelIdeal.S64x64 (kExp s) 0x00000000#32 Cert.KernelIdeal.Gen.reduces_S64x64x64_S64x64 (.inl rfl) rfl)
        Cert.KernelIdeal.Gen.shapeCasts_S64x64_S64x64x1)
      Cert.KernelIdeal.Gen.broadcasts_S64x64x1_S64x64x64) := rfl

/-- The kernel's row maximum at (a, t), read off the row k ↦ (a, t, k). -/
private theorem kMax_apply (s : VI Cert.KernelIdeal.S64x64x64) (a t : Fin 64) :
    kMax s (ix2 a t) = max negInf (Finset.univ.fold max negInf (fun k : Fin 64 => s (ix3 a t k))) :=
  congrArg (max negInf) (kernel_rowMax s rfl a t)

/-- The kernel's exponential at (a, t, d): of the score there less the row's maximum. -/
private theorem kExp_apply (s : VI Cert.KernelIdeal.S64x64x64) (a t d : Fin 64) :
    kExp s (ix3 a t d)
      = Ideal.exp (s (ix3 a t d) - max negInf (Finset.univ.fold max negInf (fun k : Fin 64 => s (ix3 a t k)))) := by
  have h1 : kExp s (ix3 a t d) = Ideal.exp (s (ix3 a t d) - broadcastTo Cert.KernelIdeal.S64x64x64
      (shapeCast Cert.KernelIdeal.S64x64x1 (kMax s) Cert.KernelIdeal.Gen.shapeCasts_S64x64_S64x64x1)
      Cert.KernelIdeal.Gen.broadcasts_S64x64x1_S64x64x64 (ix3 a t d)) := rfl
  rw [h1, kernel_column, kMax_apply]

/-- The kernel's softmax at (a, t, d) is the row softmax of the row k ↦ (a, t, k) of its operand. -/
private theorem softmax_apply (s : VI Cert.KernelIdeal.S64x64x64) (a t d : Fin 64) :
    softmax s (ix3 a t d) = rowSoftmax (fun k : Fin 64 => s (ix3 a t k)) d := by
  have h1 : softmax s (ix3 a t d) = Ideal.div (kExp s (ix3 a t d)) (broadcastTo Cert.KernelIdeal.S64x64x64
      (shapeCast Cert.KernelIdeal.S64x64x1
        (multiReduction .add [2] Cert.KernelIdeal.S64x64 (kExp s) 0x00000000#32 Cert.KernelIdeal.Gen.reduces_S64x64x64_S64x64 (.inl rfl) rfl)
        Cert.KernelIdeal.Gen.shapeCasts_S64x64_S64x64x1)
      Cert.KernelIdeal.Gen.broadcasts_S64x64x1_S64x64x64 (ix3 a t d)) := rfl
  rw [h1, kernel_column, kernel_rowSum (kExp s) rfl a t, kExp_apply]
  unfold rowSoftmax
  exact congrArg (Ideal.div _) (Finset.sum_congr rfl fun k _ => kExp_apply s a t k)

/-! ## The reference's side -/

/-- The reference's maximum over axis 5 from minus infinity, at (b, r, w, hd, t): the fold of max over the row
    k ↦ (b, r, w, hd, t, k). -/
private theorem ref_rowMax (A : FVec Ideal Cert.ReferenceIdeal.S4x32x32x4x64x64 .f32) (b : Fin 4) (r w : Fin 32) (hd : Fin 4) (t : Fin 64) :
    Host.reduce (α := Ideal .f32) FloatOps.maximumf A (val_main_cst_5 (F := Ideal)) Cert.ReferenceIdeal.Gen.reducesTo_S4x32x32x4x64x64_S4x32x32x4x64_d5
        Cert.ReferenceIdeal.Gen.h_S_ (ix5 b r w hd t)
      = Finset.univ.fold max negInf (fun k : Fin 64 => A (ix6 b r w hd t k)) := by
  have hR : Cert.ReferenceIdeal.S4x32x32x4x64x64.Reduces [5] Cert.ReferenceIdeal.S4x32x32x4x64 := by decide
  refine (Host.reduce_eq_fold_single (α := Ideal .f32) (FloatOps.maximumf (F := Ideal) (φ := .f32)) A (val_main_cst_5 (F := Ideal))
    Cert.ReferenceIdeal.Gen.reducesTo_S4x32x32x4x64x64_S4x32x32x4x64_d5 hR Cert.ReferenceIdeal.Gen.h_S_ (ix5 b r w hd t)).trans ?_
  have hf : (A ∘ hR.lift (ix5 b r w hd t)) = fun k : Fin 64 => A (ix6 b r w hd t k) :=
    funext fun k => congrArg A (funext fun c => Fin.ext (by
      match c with | ⟨0, _⟩ => rfl | ⟨1, _⟩ => rfl | ⟨2, _⟩ => rfl | ⟨3, _⟩ => rfl | ⟨4, _⟩ => rfl | ⟨5, _⟩ => rfl))
  exact congrArg (fun f => Finset.fold max negInf f (Finset.univ : Finset (Fin 64))) hf

/-- The reference's row maxima, once more against minus infinity. -/
private theorem ref_v43 (X : RImg) (g be : RVec) (Wq : RWqkv) (b : Fin 4) (r w : Fin 32) (hd : Fin 4) (t : Fin 64) :
    val_main_v43 (F := Ideal) X g be Wq (ix5 b r w hd t)
      = max negInf (Finset.univ.fold max negInf (fun k : Fin 64 => val_main_v40 (F := Ideal) X g be Wq (ix6 b r w hd t k))) := by
  rw [val_main_v43_apply, val_main_v42_apply, val_main_cst_6_apply]
  unfold val_main_v41
  rw [ref_rowMax]
  rfl

/-- The reference's exponentials. -/
private theorem ref_v47 (X : RImg) (g be : RVec) (Wq : RWqkv) (b : Fin 4) (r w : Fin 32) (hd : Fin 4) (t d : Fin 64) :
    val_main_v47 (F := Ideal) X g be Wq (ix6 b r w hd t d)
      = Ideal.exp (val_main_v40 (F := Ideal) X g be Wq (ix6 b r w hd t d)
          - max negInf (Finset.univ.fold max negInf (fun k : Fin 64 => val_main_v40 (F := Ideal) X g be Wq (ix6 b r w hd t k)))) := by
  rw [val_main_v47_apply, val_main_v46_apply, val_main_v45_apply, val_main_v44_apply]
  have hi : idx_main_v44 (idx_main_v45 (ix6 b r w hd t d)) = ix5 b r w hd t :=
    funext fun c => Fin.ext (by
      match c with | ⟨0, _⟩ => rfl | ⟨1, _⟩ => rfl | ⟨2, _⟩ => rfl | ⟨3, _⟩ => rfl | ⟨4, _⟩ => rfl)
  rw [hi, ref_v43]
  rfl

/-- The reference's row sums, spread back over the row. -/
private theorem ref_v50 (X : RImg) (g be : RVec) (Wq : RWqkv) (b : Fin 4) (r w : Fin 32) (hd : Fin 4) (t d : Fin 64) :
    val_main_v50 (F := Ideal) X g be Wq (ix6 b r w hd t d)
      = ∑ k : Fin 64, val_main_v47 (F := Ideal) X g be Wq (ix6 b r w hd t k) := by
  rw [val_main_v50_apply, val_main_v49_apply, val_main_v48_apply, val_main_cst_7_apply]
  have h0 : (FloatOps.ofBits (F := Ideal) .f32 0x00000000#32) = 0 := Ideal.ofBits_zero_f32
  rw [h0, zero_add]
  refine Finset.sum_congr rfl fun k _ => ?_
  exact congrArg (val_main_v47 (F := Ideal) X g be Wq) (funext fun c => Fin.ext (by
    match c with | ⟨0, _⟩ => rfl | ⟨1, _⟩ => rfl | ⟨2, _⟩ => rfl | ⟨3, _⟩ => rfl | ⟨4, _⟩ => rfl | ⟨5, _⟩ => rfl))

/-- The reference's softmax at (b, r, w, hd, t, d) is the row softmax of the row k ↦ (b, r, w, hd, t, k) of its scores. -/
private theorem ref_v51 (X : RImg) (g be : RVec) (Wq : RWqkv) (b : Fin 4) (r w : Fin 32) (hd : Fin 4) (t d : Fin 64) :
    val_main_v51 (F := Ideal) X g be Wq (ix6 b r w hd t d)
      = rowSoftmax (fun k : Fin 64 => val_main_v40 (F := Ideal) X g be Wq (ix6 b r w hd t k)) d := by
  rw [val_main_v51_apply, ref_v50, ref_v47]
  unfold rowSoftmax
  exact congrArg (Ideal.div _) (Finset.sum_congr rfl fun k _ => ref_v47 X g be Wq b r w hd t k)

/-- From the tile's scores, the kernel's softmax is the tile's windows of the reference's. -/
theorem softmax_tile (X : RImg) (g be : RVec) (Wq : RWqkv) (b : Fin 4) (r : Fin 32) (cb : Fin 2) (s : VI Cert.KernelIdeal.S64x64x64)
    (hs : IsWin (val_main_v40 (F := Ideal) X g be Wq) b r cb s) :
    IsWin (val_main_v51 (F := Ideal) X g be Wq) b r cb (softmax s) := by
  intro nw hd t d
  rw [softmax_apply, ref_v51]
  exact congrArg (fun f => rowSoftmax f d) (funext fun k => hs nw hd t k)

end Cert.Bridge

end
-- ==== Proof.AttnV.lean ====
/-
  The probabilities against the values, window by window.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-! The kernel's product contracts axis 2 of the probabilities with axis 1 of the values, over the shared batch axis 0:
    at an output entry (n, t, d) and contraction position u the left operand is read at (n, t, u) and the right at
    (n, u, d). The six lemmas below say so, one axis of one operand each. -/

/-- Left operand, axis 0 (the batch axis): the output's (window, head) pair. -/
theorem attnV_lhs_0 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.lhsIdx j q 0).val = (j 0).val := by
  unfold DotDims.lhsIdx
  rw [dif_pos (show (0 : Fin Cert.KernelIdeal.S64x64x64.rank) ∈ Cert.KernelIdeal.dot_S64x64x64_S64x64x64_S64x64x64_2_1_1_2_0_0.lhsBatch by decide)]
  rfl
/-- Left operand, axis 1 (kept): the output's query token. -/
theorem attnV_lhs_1 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.lhsIdx j q 1).val = (j 1).val := by
  unfold DotDims.lhsIdx
  rw [dif_neg (show ¬(1 : Fin Cert.KernelIdeal.S64x64x64.rank) ∈ Cert.KernelIdeal.dot_S64x64x64_S64x64x64_S64x64x64_2_1_1_2_0_0.lhsBatch by decide), dif_pos (show (1 : Fin Cert.KernelIdeal.S64x64x64.rank) ∈ Cert.KernelIdeal.dot_S64x64x64_S64x64x64_S64x64x64_2_1_1_2_0_0.lhsNonContracting by decide)]
  rfl
/-- Left operand, axis 2 (contracted): the key token summed over. -/
theorem attnV_lhs_2 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.lhsIdx j q 2).val = (q ⟨0, by decide⟩).val :=
  Cert.KernelIdeal.dot_S64x64x64_S64x64x64_S64x64x64_2_1_1_2_0_0.lhsIdx_val_of_single rfl j q
/-- Right operand, axis 0 (the batch axis): the output's (window, head) pair. -/
theorem attnV_rhs_0 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.rhsIdx j q 0).val = (j 0).val := by
  unfold DotDims.rhsIdx
  rw [dif_pos (show (0 : Fin Cert.KernelIdeal.S64x64x64.rank) ∈ Cert.KernelIdeal.dot_S64x64x64_S64x64x64_S64x64x64_2_1_1_2_0_0.rhsBatch by decide)]
  rfl
/-- Right operand, axis 1 (contracted): the key token summed over. -/
theorem attnV_rhs_1 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.rhsIdx j q 1).val = (q ⟨0, by decide⟩).val :=
  Cert.KernelIdeal.dot_S64x64x64_S64x64x64_S64x64x64_2_1_1_2_0_0.rhsIdx_val_of_single rfl j q
/-- Right operand, axis 2 (kept): the output's position inside the head. -/
theorem attnV_rhs_2 (j : Cert.KernelIdeal.S64x64x64.Idx) (q : Cert.KernelIdeal.dot_S64x64x64_S64x64x64_S64x64x64_2_1_1_2_0_0.contr.Idx) :
    (Cert.KernelIdeal.dot_S64x64x64_S64x64x64_S64x64x64_2_1_1_2_0_0.rhsIdx j q 2).val = (j 2).val := by
  unfold DotDims.rhsIdx
  rw [dif_neg (show ¬(2 : Fin Cert.KernelIdeal.S64x64x64.rank) ∈ Cert.KernelIdeal.dot_S64x64x64_S64x64x64_S64x64x64_2_1_1_2_0_0.rhsBatch by decide), dif_pos (show (2 : Fin Cert.KernelIdeal.S64x64x64.rank) ∈ Cert.KernelIdeal.dot_S64x64x64_S64x64x64_S64x64x64_2_1_1_2_0_0.rhsNonContracting by decide)]
  rfl

/-- From the tile's probabilities and values, the kernel's product is the tile's windows of the reference's. -/
theorem attnV_tile (X : RImg) (g be : RVec) (Wq : RWqkv) (b : Fin 4) (r : Fin 32) (cb : Fin 2) (a v : VI Cert.KernelIdeal.S64x64x64)
    (ha : IsWin (val_main_v51 (F := Ideal) X g be Wq) b r cb a)
    (hv : IsWin (val_main_v37 (F := Ideal) X g be Wq) b r cb v) :
    IsWin (val_main_v52 (F := Ideal) X g be Wq) b r cb (attnV a v) := by
  unfold IsWin at ha hv ⊢
  intro nw hd t d
  unfold attnV
  -- the kernel's entry (nw·4 + hd, t, d) is the sum over its own contraction index of a (n, t, u) · v (n, u, d)
  refine (Ideal.matmul_constant_zero_apply Cert.KernelIdeal.dot_S64x64x64_S64x64x64_S64x64x64_2_1_1_2_0_0 none _ _ (ix3 (wh nw hd) t d)).trans ?_
  -- the reference's entry (b, r, cb·16 + nw, hd, t, d) is the sum over the 64 key tokens
  rw [val_main_v52_apply, ← Equiv.sum_comp (contrEquiv1 Cert.KernelIdeal.dot_S64x64x64_S64x64x64_S64x64x64_2_1_1_2_0_0 64 rfl rfl).symm]
  refine Finset.sum_congr rfl fun k _ => ?_
  have hk := contrEquiv1_symm_val Cert.KernelIdeal.dot_S64x64x64_S64x64x64_S64x64x64_2_1_1_2_0_0 64 rfl rfl k
  have el : Cert.KernelIdeal.dot_S64x64x64_S64x64x64_S64x64x64_2_1_1_2_0_0.lhsIdx (ix3 (wh nw hd) t d) ((contrEquiv1 Cert.KernelIdeal.dot_S64x64x64_S64x64x64_S64x64x64_2_1_1_2_0_0 64 rfl rfl).symm k) = ix3 (wh nw hd) t k :=
    funext fun x => Fin.ext (by
      match x with
      | ⟨0, _⟩ => exact attnV_lhs_0 _ _
      | ⟨1, _⟩ => exact attnV_lhs_1 _ _
      | ⟨2, _⟩ => exact (attnV_lhs_2 _ _).trans hk)
  have er : Cert.KernelIdeal.dot_S64x64x64_S64x64x64_S64x64x64_2_1_1_2_0_0.rhsIdx (ix3 (wh nw hd) t d) ((contrEquiv1 Cert.KernelIdeal.dot_S64x64x64_S64x64x64_S64x64x64_2_1_1_2_0_0 64 rfl rfl).symm k) = ix3 (wh nw hd) k d :=
    funext fun x => Fin.ext (by
      match x with
      | ⟨0, _⟩ => exact attnV_rhs_0 _ _
      | ⟨1, _⟩ => exact (attnV_rhs_1 _ _).trans hk
      | ⟨2, _⟩ => exact attnV_rhs_2 _ _)
  -- the reference reads its probabilities at (b, r, window, hd, t, k) and its values at (b, r, window, hd, k, d)
  have hl : lidx_main_v52 (ix6 b r (win cb nw) hd t d) k = ix6 b r (win cb nw) hd t k :=
    funext fun x => Fin.ext (by
      match x with
      | ⟨0, _⟩ => rfl | ⟨1, _⟩ => rfl | ⟨2, _⟩ => rfl | ⟨3, _⟩ => rfl | ⟨4, _⟩ => rfl | ⟨5, _⟩ => rfl)
  have hr : ridx_main_v52 (ix6 b r (win cb nw) hd t d) k = ix6 b r (win cb nw) hd k d :=
    funext fun x => Fin.ext (by
      match x with
      | ⟨0, _⟩ => rfl | ⟨1, _⟩ => rfl | ⟨2, _⟩ => rfl | ⟨3, _⟩ => rfl | ⟨4, _⟩ => rfl | ⟨5, _⟩ => rfl)
  rw [el, er, hl, hr]
  -- the narrowing of both operands is the identity on extended reals; term by term the two products agree
  exact congrArg₂ (· * ·) (ha nw hd t k) (hv nw hd k d)

end Cert.Bridge

end
-- ==== Proof.Merge.lean ====
/-
  The windows' outputs laid back into the tile.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-- The kernel's merge read at a pixel. The windows [64, 64, 64] are split to [16, 4, 8, 8, 64], permuted to
    [8, 16, 8, 4, 64] and joined to [8, 128, 256]: entry (hh, nw·8 + ww, hd·64 + d) of the merged tile is entry
    (nw·4 + hd, hh·8 + ww, d) of the windows, because each of the two casts keeps the row-major position. -/
theorem merge_apply (o : VI Cert.KernelIdeal.S64x64x64) (hh : Fin 8) (nw : Fin 16) (ww : Fin 8) (hd : Fin 4) (d : Fin 64) :
    merge o (ix3 hh (lane nw ww) (chan hd d)) = o (ix3 (wh nw hd) (tok hh ww) d) := by
  unfold merge
  -- [8, 16, 8, 4, 64] → [8, 128, 256]: (hh, nw, ww, hd, d) and (hh, nw·8 + ww, hd·64 + d) have one row-major position
  refine (shapeCast_apply _ _ (ix3 hh (lane nw ww) (chan hd d)) (ix5 hh nw ww hd d) ?_).trans ?_
  · rw [Shape.rowMajor_val_five, Shape.rowMajor_val_three]
    show (((hh.val * 16 + nw.val) * 8 + ww.val) * 4 + hd.val) * 64 + d.val
      = (hh.val * 128 + (nw.val * 8 + ww.val)) * 256 + (hd.val * 64 + d.val)
    omega
  -- the permutation [2, 0, 3, 1, 4]: result (hh, nw, ww, hd, d) is the operand at (nw, hd, hh, ww, d)
  refine (transpose_apply [2, 0, 3, 1, 4] _ _ (ix5 hh nw ww hd d) (ix5 nw hd hh ww d) (fun a => match a with
    | ⟨0, _⟩ => rfl
    | ⟨1, _⟩ => rfl
    | ⟨2, _⟩ => rfl
    | ⟨3, _⟩ => rfl
    | ⟨4, _⟩ => rfl)).trans ?_
  -- [64, 64, 64] → [16, 4, 8, 8, 64]: (nw·4 + hd, hh·8 + ww, d) and (nw, hd, hh, ww, d) have one row-major position
  refine shapeCast_apply _ _ (ix5 nw hd hh ww d) (ix3 (wh nw hd) (tok hh ww) d) ?_
  rw [Shape.rowMajor_val_three, Shape.rowMajor_val_five]
  show ((nw.val * 4 + hd.val) * 64 + (hh.val * 8 + ww.val)) * 64 + d.val
    = (((nw.val * 4 + hd.val) * 8 + hh.val) * 8 + ww.val) * 64 + d.val
  omega

/-- The reference's merged array read at a pixel of the tile. Its three layout steps ([4, 32, 32, 4, 64, 64] split to
    [4, 32, 32, 4, 8, 8, 64], permuted to [4, 32, 8, 32, 8, 4, 64], joined to [4, 256, 256, 256]) take the entry at
    (b, r·8 + hh, (cb·16 + nw)·8 + ww, hd·64 + d) from the windows' array at (b, r, cb·16 + nw, hd, hh·8 + ww, d). -/
theorem ref_merge_apply (X : RImg) (g be : RVec) (Wq : RWqkv) (b : Fin 4) (r : Fin 32) (cb : Fin 2) (hh : Fin 8) (nw : Fin 16)
    (ww : Fin 8) (hd : Fin 4) (d : Fin 64) :
    val_main_v55 (F := Ideal) X g be Wq (ix4 b (row r hh) (col cb (lane nw ww)) (chan hd d))
      = val_main_v52 (F := Ideal) X g be Wq (ix6 b r (win cb nw) hd (tok hh ww) d) := by
  unfold val_main_v55
  -- [4, 32, 8, 32, 8, 4, 64] → [4, 256, 256, 256]: one row-major position
  refine (shapeCast_apply _ _ (ix4 b (row r hh) (col cb (lane nw ww)) (chan hd d)) (ix7 b r hh (win cb nw) ww hd d) ?_).trans ?_
  · rw [Shape.rowMajor_val_seven, Shape.rowMajor_val_four]
    show (((((b.val * 32 + r.val) * 8 + hh.val) * 32 + (cb.val * 16 + nw.val)) * 8 + ww.val) * 4 + hd.val) * 64 + d.val
      = ((b.val * 256 + (r.val * 8 + hh.val)) * 256 + (cb.val * 128 + (nw.val * 8 + ww.val))) * 256 + (hd.val * 64 + d.val)
    omega
  -- the permutation [0, 1, 4, 2, 5, 3, 6]: result (b, r, hh, win, ww, hd, d) is the operand at (b, r, win, hd, hh, ww, d)
  rw [val_main_v54_apply]
  have hi : idx_main_v54 (ix7 b r hh (win cb nw) ww hd d) = ix7 b r (win cb nw) hd hh ww d :=
    funext fun a => Fin.ext (by
      match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl)
  rw [hi]
  unfold val_main_v53
  -- [4, 32, 32, 4, 64, 64] → [4, 32, 32, 4, 8, 8, 64]: one row-major position
  refine shapeCast_apply _ _ (ix7 b r (win cb nw) hd hh ww d) (ix6 b r (win cb nw) hd (tok hh ww) d) ?_
  rw [Shape.rowMajor_val_six, Shape.rowMajor_val_seven]
  show ((((b.val * 32 + r.val) * 32 + (cb.val * 16 + nw.val)) * 4 + hd.val) * 64 + (hh.val * 8 + ww.val)) * 64 + d.val
    = (((((b.val * 32 + r.val) * 32 + (cb.val * 16 + nw.val)) * 4 + hd.val) * 8 + hh.val) * 8 + ww.val) * 64 + d.val
  omega

/-- From the tile's windows of the attention's output, the kernel's merge is the tile of the reference's merged array. -/
theorem merge_tile (X : RImg) (g be : RVec) (Wq : RWqkv) (b : Fin 4) (r : Fin 32) (cb : Fin 2) (o : VI Cert.KernelIdeal.S64x64x64)
    (ho : IsWin (val_main_v52 (F := Ideal) X g be Wq) b r cb o) :
    IsPix (val_main_v55 (F := Ideal) X g be Wq) b r cb (merge o) := by
  intro hh w c
  -- the lane is a column of one window, the channel a position of one head
  obtain ⟨nw, ww, rfl⟩ := lane_surj w
  obtain ⟨hd, d, rfl⟩ := chan_surj c
  rw [merge_apply, ho nw hd (tok hh ww) d, ref_merge_apply]

end Cert.Bridge

end
-- ==== Proof.Out.lean ====
/-
  The output product and the residual.
-/
import proofs.«134320_j21328807592345_1_alg».proof.Proof.Rel
import Idealize.ShloMosaic.Lib.Pipeline.Value
import Idealize.ShloMosaic.Lib.ValueIdx
import Idealize.ShloMosaic.Lib.ValueIdxRank6
import Idealize.ShloMosaic.PureOps.Ideal.Laws

noncomputable section

namespace Cert.Bridge

open Idealize.ShloMosaic Idealize.ShloMosaic.ValueIdx Cert.Tile Cert.KernelIdeal.Stages
open Cert.ReferenceIdeal.Read

/-! The output product's dimension numbers contract the left operand's columns (axis 1) against the right operand's
    rows (axis 0); the result's axes are the left operand's rows, then the right operand's columns. The four lemmas
    below read the two operand indices at a result index and a contraction index, one axis each. -/

/-- The left operand's row is the result's row. -/
theorem lhs_out_0 (i : Cert.KernelIdeal.S1024x256.Idx) (q : Cert.KernelIdeal.dot_S1024x256_S256x256_S1024x256_1_0_0_1_n_n.contr.Idx) :
    (Cert.KernelIdeal.dot_S1024x256_S256x256_S1024x256_1_0_0_1_n_n.lhsIdx i q 0).val = (i 0).val := by
  unfold DotDims.lhsIdx
  rw [dif_neg (show ¬(0 : Fin Cert.KernelIdeal.S1024x256.rank) ∈ Cert.KernelIdeal.dot_S1024x256_S256x256_S1024x256_1_0_0_1_n_n.lhsBatch by decide), dif_pos (show (0 : Fin Cert.KernelIdeal.S1024x256.rank) ∈ Cert.KernelIdeal.dot_S1024x256_S256x256_S1024x256_1_0_0_1_n_n.lhsNonContracting by decide)]
  rfl
/-- The left operand's column is the contraction index. -/
theorem lhs_out_1 (i : Cert.KernelIdeal.S1024x256.Idx) (q : Cert.KernelIdeal.dot_S1024x256_S256x256_S1024x256_1_0_0_1_n_n.contr.Idx) :
    (Cert.KernelIdeal.dot_S1024x256_S256x256_S1024x256_1_0_0_1_n_n.lhsIdx i q 1).val = (q ⟨0, by decide⟩).val :=
  Cert.KernelIdeal.dot_S1024x256_S256x256_S1024x256_1_0_0_1_n_n.lhsIdx_val_of_single rfl i q
/-- The right operand's row is the contraction index. -/
theorem rhs_out_0 (i : Cert.KernelIdeal.S1024x256.Idx) (q : Cert.KernelIdeal.dot_S1024x256_S256x256_S1024x256_1_0_0_1_n_n.contr.Idx) :
    (Cert.KernelIdeal.dot_S1024x256_S256x256_S1024x256_1_0_0_1_n_n.rhsIdx i q 0).val = (q ⟨0, by decide⟩).val :=
  Cert.KernelIdeal.dot_S1024x256_S256x256_S1024x256_1_0_0_1_n_n.rhsIdx_val_of_single rfl i q
/-- The right operand's column is the result's column. -/
theorem rhs_out_1 (i : Cert.KernelIdeal.S1024x256.Idx) (q : Cert.KernelIdeal.dot_S1024x256_S256x256_S1024x256_1_0_0_1_n_n.contr.Idx) :
    (Cert.KernelIdeal.dot_S1024x256_S256x256_S1024x256_1_0_0_1_n_n.rhsIdx i q 1).val = (i 1).val := by
  unfold DotDims.rhsIdx
  rw [dif_neg (show ¬(1 : Fin Cert.KernelIdeal.S256x256.rank) ∈ Cert.KernelIdeal.dot_S1024x256_S256x256_S1024x256_1_0_0_1_n_n.rhsBatch by decide), dif_pos (show (1 : Fin Cert.KernelIdeal.S256x256.rank) ∈ Cert.KernelIdeal.dot_S1024x256_S256x256_S1024x256_1_0_0_1_n_n.rhsNonContracting by decide)]
  rfl

/-- The output product into the zero accumulator, at pixel `p` and column `c`: the sum over the 256 channels `k` of
    the left operand at (p, k) times the right operand at (k, c). -/
theorem out_matmul_apply (l : FVec Ideal Cert.KernelIdeal.S1024x256 .bf16) (m : FVec Ideal Cert.KernelIdeal.S256x256 .bf16)
    (p : Fin 1024) (c : Fin 256) :
    matmul Cert.KernelIdeal.dot_S1024x256_S256x256_S1024x256_1_0_0_1_n_n none l m (constant Cert.KernelIdeal.S1024x256 .f32 0x00000000#32) (ix2 p c)
      = ∑ k : Fin 256, l (ix2 p k) * m (ix2 k c) := by
  simp only [matmul]
  rw [Ideal.matmul_constant_zero_apply, ← Equiv.sum_comp (ValueIdx.contrEquiv1 Cert.KernelIdeal.dot_S1024x256_S256x256_S1024x256_1_0_0_1_n_n 256 rfl rfl).symm]
  refine Finset.sum_congr rfl fun k _ => ?_
  have hk := ValueIdx.contrEquiv1_symm_val Cert.KernelIdeal.dot_S1024x256_S256x256_S1024x256_1_0_0_1_n_n 256 rfl rfl k
  have el : Cert.KernelIdeal.dot_S1024x256_S256x256_S1024x256_1_0_0_1_n_n.lhsIdx (ix2 p c) ((ValueIdx.contrEquiv1 Cert.KernelIdeal.dot_S1024x256_S256x256_S1024x256_1_0_0_1_n_n 256 rfl rfl).symm k) = ix2 p k := funext fun a => Fin.ext (by
    match a with
    | ⟨0, _⟩ => exact lhs_out_0 _ _
    | ⟨1, _⟩ => exact (lhs_out_1 _ _).trans hk)
  have er : Cert.KernelIdeal.dot_S1024x256_S256x256_S1024x256_1_0_0_1_n_n.rhsIdx (ix2 p c) ((ValueIdx.contrEquiv1 Cert.KernelIdeal.dot_S1024x256_S256x256_S1024x256_1_0_0_1_n_n 256 rfl rfl).symm k) = ix2 k c := funext fun a => Fin.ext (by
    match a with
    | ⟨0, _⟩ => exact (rhs_out_0 _ _).trans hk
    | ⟨1, _⟩ => exact rhs_out_1 _ _)
  rw [el, er]

/-- The output product read at pixel (hh, w) and column `c`: the pixel's 256 merged channels against column `c` of the
    weight the kernel holds. -/
theorem project_apply (om : VI Cert.KernelIdeal.S8x128x256) (x4 : Vec Ideal Cert.KernelIdeal.S256x256 .f32)
    (hh : Fin 8) (w : Fin 128) (c : Fin 256) :
    project om x4 (ix3 hh w c) = ∑ k : Fin 256, om (ix3 hh w k) * x4 (ix2 k c) := by
  unfold project
  -- the cast [1024, 256] → [8, 128, 256]: pixel (hh, w) is row hh·128 + w
  refine (shapeCast_apply _ Cert.KernelIdeal.Gen.shapeCasts_S1024x256_S8x128x256 (ix3 hh w c) (ix2 (flat hh w) c) ?_).trans ?_
  · rw [Shape.rowMajor_val_two, Shape.rowMajor_val_three]
    show (hh.val * 128 + w.val) * 256 + c.val = (hh.val * 128 + w.val) * 256 + c.val
    rfl
  refine (out_matmul_apply _ _ (flat hh w) c).trans ?_
  refine Finset.sum_congr rfl fun k _ => ?_
  rw [truncf_apply, truncf_apply, shapeCast_self]
  congr 1
  -- the cast [8, 128, 256] → [1024, 256], the same position
  refine shapeCast_apply om Cert.KernelIdeal.Gen.shapeCasts_S8x128x256_S1024x256 (ix2 (flat hh w) k) (ix3 hh w k) ?_
  rw [Shape.rowMajor_val_two, Shape.rowMajor_val_three]
  show (hh.val * 128 + w.val) * 256 + k.val = (hh.val * 128 + w.val) * 256 + k.val
  rfl

/-- What the kernel stores at (c, hh, w) of the tile: the output product at pixel (hh, w) and column `c`, plus the tile
    itself there. -/
theorem residual_apply (p : VI Cert.KernelIdeal.S8x128x256) (x0 : Vec Ideal Cert.KernelIdeal.S1x256x8x128 .f32)
    (c : Fin 256) (hh : Fin 8) (w : Fin 128) :
    residual p x0 (ix4 (0 : Fin 1) c hh w) = p (ix3 hh w c) + x0 (ix4 (0 : Fin 1) c hh w) := by
  unfold Cert.KernelIdeal.Stages.residual
  -- the cast [256, 8, 128] → [1, 256, 8, 128] adds a leading unit axis
  refine (shapeCast_apply _ Cert.KernelIdeal.Gen.shapeCasts_S256x8x128_S1x256x8x128 (ix4 (0 : Fin 1) c hh w) (ix3 c hh w) ?_).trans ?_
  · rw [Shape.rowMajor_val_three, Shape.rowMajor_val_four]
    show (c.val * 8 + hh.val) * 128 + w.val = ((0 * 256 + c.val) * 8 + hh.val) * 128 + w.val
    omega
  refine (addf_apply _ _ (ix3 c hh w)).trans ?_
  congr 1
  · -- the transpose [2, 0, 1]: entry (c, hh, w) is the operand at (hh, w, c)
    exact transpose_apply [2, 0, 1] p Cert.KernelIdeal.Gen.transposes_S8x128x256_p2_0_1_S256x8x128 (ix3 c hh w) (ix3 hh w c)
      (fun a => match a with
        | ⟨0, _⟩ => rfl
        | ⟨1, _⟩ => rfl
        | ⟨2, _⟩ => rfl)
  · -- the cast [1, 256, 8, 128] → [256, 8, 128] drops the unit axis
    refine shapeCast_apply x0 Cert.KernelIdeal.Gen.shapeCasts_S1x256x8x128_S256x8x128 (ix3 c hh w) (ix4 (0 : Fin 1) c hh w) ?_
    rw [Shape.rowMajor_val_three, Shape.rowMajor_val_four]
    show ((0 * 256 + c.val) * 8 + hh.val) * 128 + w.val = (c.val * 8 + hh.val) * 128 + w.val
    omega

/-- From the tile of the merged array, the tile of the image and the transposed output weight, what the kernel stores is
    the tile of the reference's result. -/
theorem out_tile (X : RImg) (g be : RVec) (Wq : RWqkv) (Wo : RWout) (b : Fin 4) (r : Fin 32) (cb : Fin 2)
    (om : VI Cert.KernelIdeal.S8x128x256) (x0 : Vec Ideal Cert.KernelIdeal.S1x256x8x128 .f32) (x4 : Vec Ideal Cert.KernelIdeal.S256x256 .f32)
    (hom : IsPix (val_main_v55 (F := Ideal) X g be Wq) b r cb om) (hx : IsTile X b r cb x0) (hw : IsWoutT Wo x4) :
    IsTile (val_main_v58 (F := Ideal) X g be Wq Wo) b r cb (residual (project om x4) x0) := by
  intro c hh w
  -- the kernel's side: the sum over the channels, plus the tile
  rw [residual_apply, project_apply]
  -- the reference's side: the addition, the transpose [0, 3, 1, 2], the contraction over the last axis
  rw [val_main_v58_apply, val_main_v57_apply, val_main_v56_apply]
  refine Eq.trans ?_ (Ideal.addf_def _ _).symm
  rw [hx c hh w]
  congr 1
  refine Finset.sum_congr rfl fun k _ => ?_
  -- the two operand indices of the reference's product at (b, r·8 + hh, cb·128 + w, c) and channel k
  have el : lidx_main_v56 (idx_main_v57 (ix4 b c (row r hh) (col cb w))) k = ix4 b (row r hh) (col cb w) k :=
    funext fun a => Fin.ext (by
      match a with
      | ⟨0, _⟩ => rfl
      | ⟨1, _⟩ => rfl
      | ⟨2, _⟩ => rfl
      | ⟨3, _⟩ => rfl)
  have er : ridx_main_v56 (idx_main_v57 (ix4 b c (row r hh) (col cb w))) k = ix2 c k :=
    funext fun a => Fin.ext (by
      match a with
      | ⟨0, _⟩ => rfl
      | ⟨1, _⟩ => rfl)
  rw [el, er, hom hh w k, hw k c]

end Cert.Bridge

end
-- ==== Proof.TileChain.lean ====
/-
  One tile, end to end: on a tile of the image, with the reference's parameters (the two weights transposed), the value the
  kernel's body stores is the tile of the reference's result. The eight stages, composed.
-/
import proofs.«134320_j21328807592345_1_alg».proof.Proof.Ln
import proofs.«134320_j21328807592345_1_alg».proof.Proof.Qkv
import proofs.«134320_j21328807592345_1_alg».proof.Proof.Windows
import proofs.«134320_j21328807592345_1_alg».proof.Proof.Scores
import proofs.«134320_j21328807592345_1_alg».proof.Proof.Softmax
import proofs.«134320_j21328807592345_1_alg».proof.Proof.AttnV
import proofs.«134320_j21328807592345_1_alg».proof.Proof.Merge
import proofs.«134320_j21328807592345_1_alg».proof.Proof.Out

noncomputable section

namespace Cert.Bridge

open Idealize.ShloMosaic Idealize.ShloMosaic.ValueIdx Cert.Tile Cert.KernelIdeal.Stages
open Cert.ReferenceIdeal.Read

/-- The body on a tile is the tile of the reference's result. -/
theorem body_tile (X : RImg) (g be : RVec) (Wq : RWqkv) (Wo : RWout) (b : Fin 4) (r : Fin 32) (cb : Fin 2)
    (x0 : Vec Ideal Cert.KernelIdeal.S1x256x8x128 .f32) (x1 x2 : Vec Ideal Cert.KernelIdeal.S256 .f32)
    (x3 : Vec Ideal Cert.KernelIdeal.S256x768 .f32) (x4 : Vec Ideal Cert.KernelIdeal.S256x256 .f32)
    (hx : IsTile X b r cb x0) (hg : IsVec g x1) (hb : IsVec be x2) (hq : IsWqkvT Wq x3) (ho : IsWoutT Wo x4) :
    IsTile (val_main_v58 (F := Ideal) X g be Wq Wo) b r cb (body x0 x1 x2 x3 x4) := by
  have hM := qkv_tile X g be Wq b r cb _ x3 (ln_tile X g be b r cb x0 x1 x2 hx hg hb) hq
  have hS := softmax_tile X g be Wq b r cb _
    (scores_tile X g be Wq b r cb _ _ (winQ_tile X g be Wq b r cb _ hM) (winK_tile X g be Wq b r cb _ hM))
  have hO := merge_tile X g be Wq b r cb _ (attnV_tile X g be Wq b r cb _ _ hS (winV_tile X g be Wq b r cb _ hM))
  exact out_tile X g be Wq Wo b r cb _ x0 x4 hO hx ho

end Cert.Bridge

end
-- ==== Proof.Blocks.lean ====
/-
  From tiles to the image. Grid point `t` of the kernel's launch has coordinates (b, r, cb): batch entry, row of windows,
  half of the columns. Its input block of the image is the tile (b, r, cb); its blocks of gamma, beta and the two
  transposed weights are those whole arrays; and the block it writes back is, by the tile theorem, the same tile of the
  reference's result read as a function of the kernel's own argument arrays. The 256 tiles cover the image (the tile that
  holds pixel (h, w) of batch entry b is (b, h / 8, w / 128)), so after the run the result array IS that function.
-/
import proofs.«134320_j21328807592345_1_alg».proof.Proof.Gen.KernelIdeal.Value
import proofs.«134320_j21328807592345_1_alg».proof.Proof.TileChain
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Stages Idealize.ShloMosaic.ValueIdx Cert.Tile Cert.Bridge

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The reference's result as a function of the kernel's argument arrays. -/
abbrev G (c : Dev nD) : S4x256x256x256.Idx → EReal :=
  Cert.ReferenceIdeal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A grid point's batch entry, row of windows and half of the columns. -/
def gb (t : Fin cfg0.N) : Fin 4 := ⟨(grid0.coords t 0).val, (grid0.coords t 0).isLt⟩
def gr (t : Fin cfg0.N) : Fin 32 := ⟨(grid0.coords t 1).val, (grid0.coords t 1).isLt⟩
def gc (t : Fin cfg0.N) : Fin 2 := ⟨(grid0.coords t 2).val, (grid0.coords t 2).isLt⟩

/-- The printed index maps, decided over the grid: the image's window and the result's window sit at block
    (b, 0, r, cb); the four parameter windows at their one block. -/
theorem idx_facts : ∀ t : Fin cfg0.N,
    win0_0.index t (0 : Fin 4) = (grid0.coords t 0).val ∧ win0_0.index t (1 : Fin 4) = 0
    ∧ win0_0.index t (2 : Fin 4) = (grid0.coords t 1).val ∧ win0_0.index t (3 : Fin 4) = (grid0.coords t 2).val
    ∧ win0_5.index t (0 : Fin 4) = (grid0.coords t 0).val ∧ win0_5.index t (1 : Fin 4) = 0
    ∧ win0_5.index t (2 : Fin 4) = (grid0.coords t 1).val ∧ win0_5.index t (3 : Fin 4) = (grid0.coords t 2).val
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch entry, row of windows, half) is some grid point's. -/
theorem idx_onto : ∀ (q0 : Fin 4) (q1 : Fin 32) (q2 : Fin 2), ∃ t : Fin cfg0.N,
    (grid0.coords t 0).val = q0.val ∧ (grid0.coords t 1).val = q1.val ∧ (grid0.coords t 2).val = q2.val :=
  (by decide +kernel : ∀ (q0 : Fin 4) (q1 : Fin 32) (q2 : Fin 2), ∃ t : Fin grid0.N,
    (grid0.coords t 0).val = q0.val ∧ (grid0.coords t 1).val = q1.val ∧ (grid0.coords t 2).val = q2.val)

/-! ## The input blocks at a point -/

/-- The image's block at point `t` is the tile (b, r, cb) of the image. -/
theorem tile_x (c : Dev nD) (t : Fin cfg0.N) :
    IsTile (m ((c : Thread nD τ).loc main_arg0)) (gb t) (gr t) (gc t) (iblk m c 0 t) := by
  obtain ⟨e0, e1, e2, e3, -⟩ := idx_facts t
  intro ch hh w
  unfold iblk
  rw [View.read_apply]
  show V m c main_arg0 _ = _
  rw [V_main_arg0]
  congr 1
  funext a
  apply Fin.ext
  match a with
  | ⟨0, _⟩ => show win0_0.index t (0 : Fin 4) * 1 + 1 * 0 = (grid0.coords t 0).val; omega
  | ⟨1, _⟩ => show win0_0.index t (1 : Fin 4) * 256 + 1 * ch.val = ch.val; omega
  | ⟨2, _⟩ => show win0_0.index t (2 : Fin 4) * 8 + 1 * hh.val = (grid0.coords t 1).val * 8 + hh.val; omega
  | ⟨3, _⟩ => show win0_0.index t (3 : Fin 4) * 128 + 1 * w.val = (grid0.coords t 2).val * 128 + w.val; omega

/-- Gamma's block at any point is gamma. -/
theorem blk_gamma (c : Dev nD) (t : Fin cfg0.N) : IsVec (m ((c : Thread nD τ).loc main_arg1)) (iblk m c 1 t) := by
  obtain ⟨-, -, -, -, -, -, -, -, e, -⟩ := idx_facts t
  intro ch
  unfold iblk
  rw [View.read_apply]
  show V m c main_arg1 _ = _
  rw [V_main_arg1]
  congr 1
  funext a
  apply Fin.ext
  match a with
  | ⟨0, _⟩ => show win0_1.index t (0 : Fin 1) * 256 + 1 * ch.val = ch.val; omega

/-- Beta's block at any point is beta. -/
theorem blk_beta (c : Dev nD) (t : Fin cfg0.N) : IsVec (m ((c : Thread nD τ).loc main_arg2)) (iblk m c 2 t) := by
  obtain ⟨-, -, -, -, -, -, -, -, -, e, -⟩ := idx_facts t
  intro ch
  unfold iblk
  rw [View.read_apply]
  show V m c main_arg2 _ = _
  rw [V_main_arg2]
  congr 1
  funext a
  apply Fin.ext
  match a with
  | ⟨0, _⟩ => show win0_2.index t (0 : Fin 1) * 256 + 1 * ch.val = ch.val; omega

/-- The array the joint weight's window stages is the transpose the host wrote before the launch. -/
theorem V_wqkvT (c : Dev nD) : (V m c main_v0 : S256x768.Idx → EReal)
    = transpose S256x768 [1, 0] (m ((c : Thread nD τ).loc main_arg3)) transposes_S768x256_S256x768_1_0 := by
  dsimp only [Gen.V, Gen.hostOps0]; after_results

/-- The array the output weight's window stages is the transpose the host wrote before the launch. -/
theorem V_woutT (c : Dev nD) : (V m c main_v1 : S256x256.Idx → EReal)
    = transpose S256x256 [1, 0] (m ((c : Thread nD τ).loc main_arg4)) transposes_S256x256_S256x256_1_0 := by
  dsimp only [Gen.V, Gen.hostOps0]; after_results

/-- The joint weight's block at any point is the transposed weight. -/
theorem blk_wqkv (c : Dev nD) (t : Fin cfg0.N) : IsWqkvT (m ((c : Thread nD τ).loc main_arg3)) (iblk m c 3 t) := by
  obtain ⟨-, -, -, -, -, -, -, -, -, -, e0, e1, -⟩ := idx_facts t
  intro ch f
  unfold iblk
  rw [View.read_apply]
  show (V m c main_v0 : S256x768.Idx → EReal) _ = _
  rw [V_wqkvT]
  refine transpose_apply [1, 0] _ transposes_S768x256_S256x768_1_0 _ (ix2 f ch) fun b => ?_
  match b with
  | ⟨0, _⟩ => show ch.val = win0_3.index t (0 : Fin 2) * 256 + 1 * ch.val; omega
  | ⟨1, _⟩ => show f.val = win0_3.index t (1 : Fin 2) * 768 + 1 * f.val; omega

/-- The output weight's block at any point is the transposed weight. -/
theorem blk_wout (c : Dev nD) (t : Fin cfg0.N) : IsWoutT (m ((c : Thread nD τ).loc main_arg4)) (iblk m c 4 t) := by
  obtain ⟨-, -, -, -, -, -, -, -, -, -, -, -, e0, e1⟩ := idx_facts t
  intro ch f
  unfold iblk
  rw [View.read_apply]
  show (V m c main_v1 : S256x256.Idx → EReal) _ = _
  rw [V_woutT]
  refine transpose_apply [1, 0] _ transposes_S256x256_S256x256_1_0 _ (ix2 f ch) fun b => ?_
  match b with
  | ⟨0, _⟩ => show ch.val = win0_4.index t (0 : Fin 2) * 256 + 1 * ch.val; omega
  | ⟨1, _⟩ => show f.val = win0_4.index t (1 : Fin 2) * 256 + 1 * f.val; omega

/-! ## What a point writes back, and the array after the run -/

/-- The one store's value, read through the whole staging buffer, is the stages' composition on the loaded blocks. -/
theorem out_eq_body (x0 : Vec Ideal S1x256x8x128 .f32) (x1 x2 : Vec Ideal S256 .f32) (x3 : Vec Ideal S256x768 .f32)
    (x4 : Vec Ideal S256x256 .f32) : out0_5 x0 x1 x2 x3 x4 = body x0 x1 x2 x3 x4 := by
  unfold out0_5
  rw [View.canon_unit_zero hz4]
  simp only [View.ld_unit_zero (S := S1x256x8x128) hz4, View.ld_unit_zero (S := S256) hz1,
    View.ld_unit_zero (S := S256x768) hz2, View.ld_unit_zero (S := S256x256) hz2]
  exact payload_eq x0 x1 x2 x3 x4

/-- A block that is the tile (b, r, cb) of an array, written back at the point with those coordinates, is that point's
    block of the array: entry (0, ch, hh, w) of the block lands at (b, ch, r·8 + hh, cb·128 + w). -/
theorem cut_eq_read (c : Dev nD) (t : Fin cfg0.N) (B : Vec Ideal S1x256x8x128 .f32) (Gc : S4x256x256x256.Idx → EReal)
    (hT : IsTile Gc (gb t) (gr t) (gc t) B) :
    (cfg0.win 5).cut (grid0.coords t) B = ((cfg0.win 5).blk t).view.read (Elt Ideal) Gc := by
  obtain ⟨-, -, -, -, e0, e1, e2, e3, -⟩ := idx_facts t
  funext j
  rw [View.read_apply]
  have h0 : (j 0).val = 0 := by have h1 : (j 0).val < 1 := (j 0).isLt; omega
  have hj : (cfg0.win 5).xinj (grid0.coords t) j = ix4 (0 : Fin 1) (⟨(j 1).val, (j 1).isLt⟩ : Fin 256)
      (⟨(j 2).val, (j 2).isLt⟩ : Fin 8) (⟨(j 3).val, (j 3).isLt⟩ : Fin 128) := by
    funext a
    apply Fin.ext
    match a with
    | ⟨0, _⟩ => exact h0
    | ⟨1, _⟩ => rfl
    | ⟨2, _⟩ => rfl
    | ⟨3, _⟩ => rfl
  show B ((cfg0.win 5).xinj (grid0.coords t) j) = Gc _
  rw [hj]
  refine (hT _ _ _).trans (congrArg Gc ?_)
  funext a
  apply Fin.ext
  match a with
  | ⟨0, _⟩ => show (grid0.coords t 0).val = win0_5.index t (0 : Fin 4) * 1 + 1 * (j 0).val; omega
  | ⟨1, _⟩ => show (j 1).val = win0_5.index t (1 : Fin 4) * 256 + 1 * (j 1).val; omega
  | ⟨2, _⟩ => show (grid0.coords t 1).val * 8 + (j 2).val = win0_5.index t (2 : Fin 4) * 8 + 1 * (j 2).val; omega
  | ⟨3, _⟩ => show (grid0.coords t 2).val * 128 + (j 3).val = win0_5.index t (3 : Fin 4) * 128 + 1 * (j 3).val; omega

/-- What point `t` writes back is block `t` of the reference's result. -/
theorem flushed_eq (c : Dev nD) (t : Fin cfg0.N) :
    (dats m 0 c).flushed 5 t = ((cfg0.win 5).blk t).view.read (Elt Ideal) (G m c) := by
  rw [Cert.KernelIdeal.Value.flushed5, out_eq_body]
  exact cut_eq_read c t _ (G m c)
    (body_tile (m ((c : Thread nD τ).loc main_arg0)) (m ((c : Thread nD τ).loc main_arg1))
      (m ((c : Thread nD τ).loc main_arg2)) (m ((c : Thread nD τ).loc main_arg3)) (m ((c : Thread nD τ).loc main_arg4))
      (gb t) (gr t) (gc t) (iblk m c 0 t) (iblk m c 1 t) (iblk m c 2 t) (iblk m c 3 t) (iblk m c 4 t)
      (tile_x m c t) (blk_gamma m c t) (blk_beta m c t) (blk_wqkv m c t) (blk_wout m c t))

/-- An index of the image is in point `t`'s block iff each coordinate is in the block's range on its axis. -/
theorem mem_blk (t : Fin cfg0.N) (i : S4x256x256x256.Idx) :
    i ∈ ((cfg0.win 5).blk t).view.set ↔ ∀ a : Fin 4, win0_5.index t a * S1x256x8x128.size a ≤ (i a).val
      ∧ (i a).val < win0_5.index t a * S1x256x8x128.size a + S1x256x8x128.size a := by
  show i ∈ ((View.whole main_v2).slice (win0_5.rect t)).set ↔ _
  rw [View.set_slice_whole, Rect.mem_set_unit]
  exact Iff.rfl

/-- The tiles cover the image: pixel (h, w) of batch entry b is in tile (b, h / 8, w / 128). -/
theorem cover (i : S4x256x256x256.Idx) :
    ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 256 := (i 2).isLt
  have hi3 : (i 3).val < 256 := (i 3).isLt
  obtain ⟨t, q0, q1, q2⟩ := idx_onto ⟨(i 0).val, hi0⟩ ⟨(i 2).val / 8, by omega⟩ ⟨(i 3).val / 128, by omega⟩
  obtain ⟨-, -, -, -, e0, e1, e2, e3, -⟩ := idx_facts t
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1
              simp only [] at q0; omega
  | ⟨1, _⟩ => show win0_5.index t (1 : Fin 4) * 256 ≤ (i 1).val ∧ (i 1).val < win0_5.index t (1 : Fin 4) * 256 + 256; omega
  | ⟨2, _⟩ => show win0_5.index t (2 : Fin 4) * 8 ≤ (i 2).val ∧ (i 2).val < win0_5.index t (2 : Fin 4) * 8 + 8
              simp only [] at q1; omega
  | ⟨3, _⟩ => show win0_5.index t (3 : Fin 4) * 128 ≤ (i 3).val ∧ (i 3).val < win0_5.index t (3 : Fin 4) * 128 + 128
              simp only [] at q2; omega

/-- After the run the result array is the reference's result of the kernel's arguments. -/
theorem final (c : Dev nD) : (dats m 0 c).arrAt 5 cfg0.N = G m c :=
  (dats m 0 c).arrAt_eq_of_cover 5 (G m c) (fun t _ => flushed_eq m c t) (cover)

/-- The kernel's run, read: the result array at the reference's function of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  Windowed self-attention with a residual, on an image x of shape [4, 256, 256, 256] (batch, channel, row, column):
  every pixel's 256 channels are layer-normalised (mean and variance over the channels, the reciprocal root of the
  variance plus epsilon, gamma and beta), multiplied into queries, keys and values by one [768, 256] weight, and the image is
  cut into 8 x 8 windows; in every window and for each of 4 heads of 64 channels the 64 tokens attend to each other
  (scores = queries against keys over the head's channels, times one eighth; a row softmax; the probabilities against the
  values); the heads' outputs are laid back, multiplied by a [256, 256] weight and added to x.

  The kernel does this tile by tile: a grid of 4 x 32 x 2 points, each owning 8 rows by 128 columns of one batch entry,
  that is one row of 16 whole windows, with both weights transposed on the host beforehand. The reference does it on the
  whole image at once. Read on the extended reals the two are the same expression at every index: the only differences
  are the layout (which window of the image is which window of a tile), a product written as a contraction with a
  transposed weight, and the order in which a row's maximum and sums are folded. So the proof is a change of coordinates.
  Proof/TileIdx.lean names the coordinates; Proof/KStages.lean cuts the kernel's body into its stages; Proof/Rel.lean says
  what it means for a tile's vector to be the tile of one of the reference's arrays; the eight stage modules carry that
  relation from the input through layer norm, the joint product, the windows, scores, softmax, the product with the values,
  the merge and the output product with the residual; Proof/TileChain.lean composes them; Proof/Blocks.lean shows that the
  grid's 256 tiles cover the image, so the kernel's result array is the reference's result as a function of the arguments.
  The laws used are 0 + x = x and that a finite sum, or a finite maximum, does not depend on how its terms are indexed or
  in which order they are folded; nothing is distributed or cancelled, so the inputs' finiteness is never needed.
-/
import proofs.«134320_j21328807592345_1_alg».proof.Defs
import proofs.«134320_j21328807592345_1_alg».proof.Proof.Gen.Kernel
import proofs.«134320_j21328807592345_1_alg».proof.Proof.Gen.Kernel.Frame
import proofs.«134320_j21328807592345_1_alg».proof.Proof.Gen.KernelIdeal
import proofs.«134320_j21328807592345_1_alg».proof.Proof.Gen.KernelIdeal.Frame
import proofs.«134320_j21328807592345_1_alg».proof.Proof.Gen.KernelIdeal.Value
import proofs.«134320_j21328807592345_1_alg».proof.Proof.Gen.ReferenceIdeal
import proofs.«134320_j21328807592345_1_alg».proof.Proof.Gen.ReferenceIdeal.Run
import proofs.«134320_j21328807592345_1_alg».proof.Proof.Gen.ReferenceIdeal.Read
import proofs.«134320_j21328807592345_1_alg».proof.Proof.Gen.Pre_finite_inputs
import proofs.«134320_j21328807592345_1_alg».proof.Proof.Blocks
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, both programs end with the result array at the
    reference's function of the arguments: the kernel's because its tiles are the tiles of that function and cover the
    image, the reference's because that function is what its operations compose to. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
